-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S100000 : Shape := ⟨1, ![100000]⟩
abbrev S32x16 : Shape := ⟨2, ![32, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S2 .f32) (main_v48 : IVec S_ 1) (main_v49 : FVec F S16x2 .f32) (main_v50 : FVec F S16x2 .f32) : IVec S_ 1 :=
  let main_v51 : IVec S16x2 1 := cmpf .olt main_v49 main_v50
  let main_c_19 : IVec S_ 1 := constantI S_ 1 1#1
  let main_v52 : IVec S_ 1 := (fun x v => Host.reduce IntOp.andi x v reducesTo_S16x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg9 : FVec F S16x16 .f32) (main_arg10 : FVec F S16x16 .f32) (main_arg11 : FVec F S16 .f32) (main_arg12 : FVec F S16x2 .f32) (main_arg13 : FVec F S2 .f32) (main_v33 : IVec S_ 1) : IVec S_ 1 :=
  let main_v34 : FVec F S16x16 .f32 := Host.absf main_arg9
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16x16 .f32 := Host.absf main_arg10
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x2 .f32 := Host.absf main_arg12
  let main_cst_18 : FVec F S_ .f32 := constant S_ .f32 0x7F800000#32
  let main_v50 : FVec F S16x2 .f32 := broadcastInDim S16x2 ![] bcast_S_S16x2 main_cst_18
  fn_part3 (F := F) main_arg13 main_v48 main_v49 main_v50

def fn_part1 {F : FTy → Type} [FloatOps F] (main_arg6 : FVec F S16x16 .f32) (main_arg7 : FVec F S16x16 .f32) (main_arg8 : FVec F S16 .f32) (main_arg9 : FVec F S16x16 .f32) (main_arg10 : FVec F S16x16 .f32) (main_arg11 : FVec F S16 .f32) (main_arg12 : FVec F S16x2 .f32) (main_arg13 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16x16 .f32 := Host.absf main_arg7
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x32 .f32) (main_arg1 : IVec S2x3200000 32) (main_arg2 : IVec S100000 32) (main_arg3 : FVec F S32x16 .f32) (main_arg4 : FVec F S32x16 .f32) (main_arg5 : FVec F S16 .f32) (main_arg6 : FVec F S16x16 .f32) (main_arg7 : FVec F S16x16 .f32) (main_arg8 : FVec F S16 .f32) (main_arg9 : FVec F S16x16 .f32) (main_arg10 : FVec F S16x16 .f32) (main_arg11 : FVec F S16 .f32) (main_arg12 : FVec F S16x2 .f32) (main_arg13 : FVec F S2 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x16 .f32 := Host.absf main_arg3
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S32x16 .f32 := Host.absf main_arg4
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_arg12 main_arg13 main_v13 main_v16
-- ==== Kernel.lean ====
abbrev S100000x32 : Shape := ⟨2, ![100000, 32]⟩
abbrev S2x3200000 : Shape := ⟨2, ![2, 3200000]⟩
abbrev S100000 : Shape := ⟨1, ![100000]⟩
abbrev S32x16 : Shape := ⟨2, ![32, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S1x16 : Shape := ⟨2, ![1, 16]⟩
abbrev S100000x16 : Shape := ⟨2, ![100000, 16]⟩
abbrev S5000x32 : Shape := ⟨2, ![5000, 32]⟩
abbrev S5000x16 : Shape := ⟨2, ![5000, 16]⟩
abbrev S3200000x16 : Shape := ⟨2, ![3200000, 16]⟩
abbrev S512x16 : Shape := ⟨2, ![512, 16]⟩
abbrev S100000x1 : Shape := ⟨2, ![100000, 1]⟩
abbrev S1x2 : Shape := ⟨2, ![1, 2]⟩
abbrev S512x2 : Shape := ⟨2, ![512, 2]⟩

abbrev nBuf : Space → Nat
  | .hbm => 69
  | .vmem => 31
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S100000, .i32⟩
  | .hbm, ⟨3, _⟩ => ⟨S32x16, .f32⟩
  | .hbm, ⟨4, _⟩ => ⟨S32x16, .f32⟩
  | .hbm, ⟨5, _⟩ => ⟨S16, .f32⟩
  | .hbm, ⟨6, _⟩ => ⟨S16x16, .f32⟩
  | .hbm, ⟨7, _⟩ => ⟨S16x16, .f32⟩
  | .hbm, ⟨8, _⟩ => ⟨S16, .f32⟩
  | .hbm, ⟨9, _⟩ => ⟨S16x16, .f32⟩
  | .hbm, ⟨10, _⟩ => ⟨S16x16, .f32⟩
  | .hbm, ⟨11, _⟩ => ⟨S16, .f32⟩
  | .hbm, ⟨12, _⟩ => ⟨S16x2, .f32⟩
  | .hbm, ⟨13, _⟩ => ⟨S2, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x32, .f32⟩
  | .hbm, ⟨27, _⟩ => ⟨S_, .f32⟩
  | .hbm, ⟨28, _⟩ => ⟨S100000x32, .f32⟩
  | .hbm, ⟨29, _⟩ => ⟨S3200000x1, .i32⟩
  | .hbm, ⟨30, _⟩ => ⟨S100000x32, .f32⟩
  | .hbm, ⟨31, _⟩ => ⟨S1x16, .f32⟩
  | .hbm, ⟨32, _⟩ => ⟨S100000x16, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x16, .f32⟩
  | .hbm, ⟨42, _⟩ => ⟨S_, .f32⟩
  | .hbm, ⟨43, _⟩ => ⟨S100000x16, .f32⟩
  | .hbm, ⟨44, _⟩ => ⟨S3200000x1, .i32⟩
  | .hbm, ⟨45, _⟩ => ⟨S100000x16, .f32⟩
  | .hbm, ⟨46, _⟩ => ⟨S1x16, .f32⟩
  | .hbm, ⟨47, _⟩ => ⟨S100000x16, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x16, .f32⟩
  | .hbm, ⟨57, _⟩ => ⟨S_, .f32⟩
  | .hbm, ⟨58, _⟩ => ⟨S100000x16, .f32⟩
  | .hbm, ⟨59, _⟩ => ⟨S3200000x1, .i32⟩
  | .hbm, ⟨60, _⟩ => ⟨S100000x16, .f32⟩
  | .hbm, ⟨61, _⟩ => ⟨S1x16, .f32⟩
  | .hbm, ⟨62, _⟩ => ⟨S100000x16, .f32⟩
  | .hbm, ⟨63, _⟩ => ⟨S_, .f32⟩
  | .hbm, ⟨64, _⟩ => ⟨S512x16, .f32⟩
  | .hbm, ⟨65, _⟩ => ⟨S100000x1, .i32⟩
  | .hbm, ⟨66, _⟩ => ⟨S512x16, .f32⟩
  | .hbm, ⟨67, _⟩ => ⟨S1x2, .f32⟩
  | .hbm, ⟨68, _⟩ => ⟨S512x2, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x16, .f32⟩
  | .local _ .vmem, ⟨5, _⟩ => ⟨S32x16, .f32⟩
  | .local _ .vmem, ⟨6, _⟩ => ⟨S1x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16x16, .f32⟩
  | .local _ .vmem, ⟨14, _⟩ => ⟨S16x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S16x16, .f32⟩
  | .local _ .vmem, ⟨23, _⟩ => ⟨S16x16, .f32⟩
  | .local _ .vmem, ⟨24, _⟩ => ⟨S1x16, .f32⟩
  | .local _ .vmem, ⟨25, _⟩ => ⟨S5000x16, .f32⟩
  | .local _ .vmem, ⟨26, _⟩ => ⟨S5000x16, .f32⟩
  | .local _ .vmem, ⟨27, _⟩ => ⟨S512x16, .f32⟩
  | .local _ .vmem, ⟨28, _⟩ => ⟨S16x2, .f32⟩
  | .local _ .vmem, ⟨29, _⟩ => ⟨S1x2, .f32⟩
  | .local _ .vmem, ⟨30, _⟩ => ⟨S512x2, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S16x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  shapeCasts_S16_S1x16 : S16.ShapeCasts S1x16
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  bcast_S_S512x16 : S_.BroadcastsInDim S512x16 (![] : Fin 0 → Fin S512x16.rank)
  bcast_S100000_S100000x1_0 : S100000.BroadcastsInDim S100000x1 (![0] : Fin 1 → Fin S100000x1.rank)
  shapeCasts_S2_S1x2 : S2.ShapeCasts S1x2
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x16_S5000x16_1_0_0_1_n_n_wf : DotDims.WF S5000x32 S32x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x16_S5000x16_1_0_0_1_n_n_wf : DotDims.WF S5000x16 S16x16 S5000x16 [1] [0] [0] [1] [] []
  scatter_S512x16_S100000x1_S100000x16_1_0_0_1_wf : ScatterDims.WF S512x16 S100000x1 S100000x16 [1] [0] [0] 1
  dot_S512x16_S16x2_S512x2_1_0_0_1_n_n_wf : DotDims.WF S512x16 S16x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x16.size a ≤ S32x16.size a
  hwx0_2 : ∀ i : grid0.Coords, EltTy.bits .f32 = 32 ∨ (Rect.block (s := S32x16) S32x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x16.size a ≤ S512x16.size a
  hwx3_0 : ∀ i : grid3.Coords, EltTy.bits .f32 = 32 ∨ (Rect.block (s := S512x16) S512x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x2.size a ≤ S16x2.size a
  hwx3_1 : ∀ i : grid3.Coords, EltTy.bits .f32 = 32 ∨ (Rect.block (s := S16x2) S16x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x2.size a ≤ S512x2.size a
  hwx3_3 : ∀ i : grid3.Coords, EltTy.bits .f32 = 32 ∨ (Rect.block (s := S512x2) S512x2.size (cc3_transform_3 i) (hinb3_3 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def dot_S512x16_S16x2_S512x2_1_0_0_1_n_n : DotDims S512x16 S16x2 S512x2 where
  lhsContracting := [1]
  rhsContracting := [0]
  lhsNonContracting := [0]
  rhsNonContracting := [1]
  lhsBatch := []
  rhsBatch := []
  wf := dot_S512x16_S16x2_S512x2_1_0_0_1_n_n_wf

abbrev win0_0 : Pipeline.Window sig grid0 :=
  Pipeline.Window.ofSpec (Memref.whole main_v13) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S512x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S16x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S512x2.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S100000 : Shape := ⟨1, ![100000]⟩
abbrev S32x16 : Shape := ⟨2, ![32, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S100000x16 : Shape := ⟨2, ![100000, 16]⟩
abbrev S1x16 : Shape := ⟨2, ![1, 16]⟩
abbrev S3200000x16 : Shape := ⟨2, ![3200000, 16]⟩
abbrev S512x16 : Shape := ⟨2, ![512, 16]⟩
abbrev S100000x1 : Shape := ⟨2, ![100000, 1]⟩
abbrev S512x2 : Shape := ⟨2, ![512, 2]⟩
abbrev S1x2 : Shape := ⟨2, ![1, 2]⟩

abbrev nBuf : Space → Nat
  | .hbm => 99
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S100000, .i32⟩
  | .hbm, ⟨3, _⟩ => ⟨S32x16, .f32⟩
  | .hbm, ⟨4, _⟩ => ⟨S32x16, .f32⟩
  | .hbm, ⟨5, _⟩ => ⟨S16, .f32⟩
  | .hbm, ⟨6, _⟩ => ⟨S16x16, .f32⟩
  | .hbm, ⟨7, _⟩ => ⟨S16x16, .f32⟩
  | .hbm, ⟨8, _⟩ => ⟨S16, .f32⟩
  | .hbm, ⟨9, _⟩ => ⟨S16x16, .f32⟩
  | .hbm, ⟨10, _⟩ => ⟨S16x16, .f32⟩
  | .hbm, ⟨11, _⟩ => ⟨S16, .f32⟩
  | .hbm, ⟨12, _⟩ => ⟨S16x2, .f32⟩
  | .hbm, ⟨13, _⟩ => ⟨S2, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x32, .f32⟩
  | .hbm, ⟨27, _⟩ => ⟨S_, .f32⟩
  | .hbm, ⟨28, _⟩ => ⟨S100000x32, .f32⟩
  | .hbm, ⟨29, _⟩ => ⟨S3200000x1, .i32⟩
  | .hbm, ⟨30, _⟩ => ⟨S100000x32, .f32⟩
  | .hbm, ⟨31, _⟩ => ⟨S100000x16, .f32⟩
  | .hbm, ⟨32, _⟩ => ⟨S100000x16, .f32⟩
  | .hbm, ⟨33, _⟩ => ⟨S100000x16, .f32⟩
  | .hbm, ⟨34, _⟩ => ⟨S1x16, .f32⟩
  | .hbm, ⟨35, _⟩ => ⟨S100000x16, .f32⟩
  | .hbm, ⟨36, _⟩ => ⟨S100000x16, .f32⟩
  | .hbm, ⟨37, _⟩ => ⟨S_, .f32⟩
  | .hbm, ⟨38, _⟩ => ⟨S_, .f32⟩
  | .hbm, ⟨39, _⟩ => ⟨S100000x16, .f32⟩
  | .hbm, ⟨40, _⟩ => ⟨S100000x16, .i1⟩
  | .hbm, ⟨41, _⟩ => ⟨S_, .f32⟩
  | .hbm, ⟨42, _⟩ => ⟨S100000x16, .f32⟩
  | .hbm, ⟨43, _⟩ => ⟨S100000x16, .f32⟩
  | .hbm, ⟨44, _⟩ => ⟨S100000x16, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x16, .f32⟩
  | .hbm, ⟨54, _⟩ => ⟨S_, .f32⟩
  | .hbm, ⟨55, _⟩ => ⟨S100000x16, .f32⟩
  | .hbm, ⟨56, _⟩ => ⟨S3200000x1, .i32⟩
  | .hbm, ⟨57, _⟩ => ⟨S100000x16, .f32⟩
  | .hbm, ⟨58, _⟩ => ⟨S100000x16, .f32⟩
  | .hbm, ⟨59, _⟩ => ⟨S100000x16, .f32⟩
  | .hbm, ⟨60, _⟩ => ⟨S100000x16, .f32⟩
  | .hbm, ⟨61, _⟩ => ⟨S1x16, .f32⟩
  | .hbm, ⟨62, _⟩ => ⟨S100000x16, .f32⟩
  | .hbm, ⟨63, _⟩ => ⟨S100000x16, .f32⟩
  | .hbm, ⟨64, _⟩ => ⟨S_, .f32⟩
  | .hbm, ⟨65, _⟩ => ⟨S_, .f32⟩
  | .hbm, ⟨66, _⟩ => ⟨S100000x16, .f32⟩
  | .hbm, ⟨67, _⟩ => ⟨S100000x16, .i1⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x16, .f32⟩
  | .hbm, ⟨72, _⟩ => ⟨S_, .i32⟩
  | .hbm, ⟨73, _⟩ => ⟨S3200000, .i32⟩
  | .hbm, ⟨74, _⟩ => ⟨S3200000, .i1⟩
  | .hbm, ⟨75, _⟩ => ⟨S_, .i32⟩
  | .hbm, ⟨76, _⟩ => ⟨S3200000, .i32⟩
  | .hbm, ⟨77, _⟩ => ⟨S3200000, .i32⟩
  | .hbm, ⟨78, _⟩ => ⟨S3200000, .i32⟩
  | .hbm, ⟨79, _⟩ => ⟨S3200000x1, .i32⟩
  | .hbm, ⟨80, _⟩ => ⟨S3200000x16, .f32⟩
  | .hbm, ⟨81, _⟩ => ⟨S_, .f32⟩
  | .hbm, ⟨82, _⟩ => ⟨S100000x16, .f32⟩
  | .hbm, ⟨83, _⟩ => ⟨S3200000x1, .i32⟩
  | .hbm, ⟨84, _⟩ => ⟨S100000x16, .f32⟩
  | .hbm, ⟨85, _⟩ => ⟨S100000x16, .f32⟩
  | .hbm, ⟨86, _⟩ => ⟨S100000x16, .f32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S512x16, .f32⟩
  | .hbm, ⟨93, _⟩ => ⟨S100000x1, .i32⟩
  | .hbm, ⟨94, _⟩ => ⟨S512x16, .f32⟩
  | .hbm, ⟨95, _⟩ => ⟨S512x2, .f32⟩
  | .hbm, ⟨96, _⟩ => ⟨S1x2, .f32⟩
  | .hbm, ⟨97, _⟩ => ⟨S512x2, .f32⟩
  | .hbm, ⟨98, _⟩ => ⟨S512x2, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v20 : Ref sig .tc := ⟨.hbm, 44, rfl⟩
abbrev main_c_2 : Ref sig .tc := ⟨.hbm, 45, rfl⟩
abbrev main_v21 : Ref sig .tc := ⟨.hbm, 46, rfl⟩
abbrev main_v22 : Ref sig .tc := ⟨.hbm, 47, rfl⟩
abbrev main_c_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v37 : Ref sig .tc := ⟨.hbm, 71, rfl⟩
abbrev main_c_6 : Ref sig .tc := ⟨.hbm, 72, rfl⟩
abbrev main_v38 : Ref sig .tc := ⟨.hbm, 73, rfl⟩
abbrev main_v39 : Ref sig .tc := ⟨.hbm, 74, rfl⟩
abbrev main_c_7 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_8 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_9 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S_S512x16 : S_.BroadcastsInDim S512x16 (![] : Fin 0 → Fin S512x16.rank)
  bcast_S100000_S100000x1_0 : S100000.BroadcastsInDim S100000x1 (![0] : Fin 1 → Fin S100000x1.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  scatter_S512x16_S100000x1_S100000x16_1_0_0_1_wf : ScatterDims.WF S512x16 S100000x1 S100000x16 [1] [0] [0] 1
  dot_S512x16_S16x2_S512x2_1_0_0_1_n_n_wf : DotDims.WF S512x16 S16x2 S512x2 [1] [0] [0] [1] [] []

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def dot_S512x16_S16x2_S512x2_1_0_0_1_n_n : DotDims S512x16 S16x2 S512x2 where
  lhsContracting := [1]
  rhsContracting := [0]
  lhsNonContracting := [0]
  rhsNonContracting := [1]
  lhsBatch := []
  rhsBatch := []
  wf := dot_S512x16_S16x2_S512x2_1_0_0_1_n_n_wf

class Facts : Prop extends Facts₀ where

variable [Facts]
-- ==== Proof.KTerms.lean ====
/-
  The host stages of the kernel's program, named.

  Between its kernel regions the program sums each node's neighbours' feature rows over the edge list (a gather of the
  source rows, a negative source index first raised by the number of nodes, then a scatter-add onto the destination
  rows), after the third region sums the nodes' rows per graph, and before each region lays the bias vector out as a
  one-row table by a reshape.
-/
import proofs.«174008_j75505525064540_1_alg».proof.KernelIdeal
import proofs.«174008_j75505525064540_1_alg».proof.Proof.Gen.KernelIdeal

noncomputable section

namespace Cert.KernelIdeal.Terms

open Idealize.ShloMosaic Cert.KernelIdeal Cert.KernelIdeal.Gen

variable {F : FTy → Type} [FloatOps F]

/-- The edges' source node indices: row 0 of the edge list. -/
def sources (e : Vec F S2x3200000 .i32) : Vec F S3200000 .i32 :=
  shapeCast S3200000 (extractStridedSlice S1x3200000 ![0, 0] e slices_S2x3200000_S1x3200000_0_0) shapeCasts_S1x3200000_S3200000

/-- The edges' destination node indices: row 1 of the edge list. -/
def targets (e : Vec F S2x3200000 .i32) : Vec F S3200000 .i32 :=
  shapeCast S3200000 (extractStridedSlice S1x3200000 ![1, 0] e slices_S2x3200000_S1x3200000_1_0) shapeCasts_S1x3200000_S3200000

/-- A negative index counts from the end: it is raised by the number of nodes. -/
def wrapped (s : Vec F S3200000 .i32) : Vec F S3200000 .i32 :=
  select (cmpi .slt s (broadcastInDim S3200000 ![] bcast_S_S3200000 (constantI S_ 32 0#32)))
    (addi s (broadcastInDim S3200000 ![] bcast_S_S3200000 (constantI S_ 32 100000#32))) s

/-- Each node's summed neighbour rows, 32 features wide. -/
def neighbourSum32 (x : Vec F S100000x32 .f32) (e : Vec F S2x3200000 .i32) : Vec F S100000x32 .f32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 (targets e))
    (Host.gather gather_S100000x32_S3200000x1_S3200000x32_1_0_n_n_0_1_132 x
      (broadcastInDim S3200000x1 ![0] bcast_S3200000_S3200000x1_0 (wrapped (sources e))))

/-- Each node's summed neighbour rows, 16 features wide. -/
def neighbourSum16 (h : Vec F S100000x16 .f32) (e : Vec F S2x3200000 .i32) : Vec F S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 (targets e))
    (Host.gather gather_S100000x16_S3200000x1_S3200000x16_1_0_n_n_0_1_116 h
      (broadcastInDim S3200000x1 ![0] bcast_S3200000_S3200000x1_0 (wrapped (sources e))))

/-- The nodes' rows summed per graph. -/
def pooled (h : Vec F S100000x16 .f32) (g : Vec F S100000 .i32) : Vec F S512x16 .f32 :=
  Host.scatterAdd scatter_S512x16_S100000x1_S100000x16_1_0_0_1
    (broadcastInDim S512x16 ![] bcast_S_S512x16 (constant S_ .f32 0x00000000#32))
    (broadcastInDim S100000x1 ![0] bcast_S100000_S100000x1_0 g) h

/-- A bias vector of 16 entries laid out as a one-row table. -/
def biasRow16 (b : Vec F S16 .f32) : Vec F S1x16 .f32 := shapeCast S1x16 b shapeCasts_S16_S1x16

/-- A bias vector of 2 entries laid out as a one-row table. -/
def biasRow2 (b : Vec F S2 .f32) : Vec F S1x2 .f32 := shapeCast S1x2 b shapeCasts_S2_S1x2

end Cert.KernelIdeal.Terms

end
-- ==== Proof.KStretch.lean ====
/-
  The kernel program's host stretches, read: what each stretch between the kernel regions leaves in the buffers the
  next region (or a later stretch) reads, in terms of the launch contents of the arguments and of the region outputs.

  Stretch 0 (before the first region) computes the neighbour sums of the node features, the bias row, and the edge
  list's two rows; stretches 1 and 2 compute the neighbour sums of the previous layer's output (reading the edge rows
  that stretch 0 left, which no region and no later operation writes) and the next bias row; stretch 3 pools the third
  layer's output per graph and lays out the classifier's bias. An argument array is written by nothing, so at every
  boundary it holds its launch contents.
-/
import proofs.«174008_j75505525064540_1_alg».proof.Proof.Gen.KernelIdeal.Frame
import proofs.«174008_j75505525064540_1_alg».proof.Proof.KTerms
import Idealize.ShloMosaic.Lib.StableHlo.Run

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-! ## A buffer that nothing writes, walked back through the boundaries

A stretch leaves a buffer none of its operations writes as it found it; a region leaves every buffer that is not one of
its arrays as it found it. So a buffer written by no stretch and no region up to a boundary holds there its launch
contents, and one written only by stretch 0 holds there what stretch 0 left. -/

/-- No operation of the stretch writes the buffer: each operation writes its one result buffer, a different one. -/
macro "no_write " ops:ident : tactic => `(tactic| (
  refine List.forall_iff_forall_mem.mp ?_
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

section Walk

variable (b : Ref sig .tc)

private theorem at1 (h0 : ∀ op ∈ hostOps0 (F := F), Proc.devRef (τ := τ) .tc b ∉ op.writes) :
    W1 m ρ c (Proc.devRef .tc b) = m ((c : Thread nD τ).loc b) :=
  StableHlo.after_of_forall_not_mem (b := Proc.devRef .tc b) hostOps0 (W0 m ρ c) h0

private theorem keep3 (r0 : ∀ w, Pipeline.arrRef spec0 w ≠ b)
    (h1 : ∀ op ∈ hostOps1 (F := F), Proc.devRef (τ := τ) .tc b ∉ op.writes) :
    W3 m ρ c (Proc.devRef .tc b) = W1 m ρ c (Proc.devRef .tc b) :=
  (StableHlo.after_of_forall_not_mem (b := Proc.devRef .tc b) hostOps1 (W2 m ρ c) h1).trans (W2_of_ne m ρ c b r0)

private theorem keep5 (r0 : ∀ w, Pipeline.arrRef spec0 w ≠ b) (r1 : ∀ w, Pipeline.arrRef spec1 w ≠ b)
    (h1 : ∀ op ∈ hostOps1 (F := F), Proc.devRef (τ := τ) .tc b ∉ op.writes)
    (h2 : ∀ op ∈ hostOps2 (F := F), Proc.devRef (τ := τ) .tc b ∉ op.writes) :
    W5 m ρ c (Proc.devRef .tc b) = W1 m ρ c (Proc.devRef .tc b) :=
  (StableHlo.after_of_forall_not_mem (b := Proc.devRef .tc b) hostOps2 (W4 m ρ c) h2).trans
    ((W4_of_ne m ρ c b r1).trans (keep3 m ρ c b r0 h1))

private theorem keep7 (r0 : ∀ w, Pipeline.arrRef spec0 w ≠ b) (r1 : ∀ w, Pipeline.arrRef spec1 w ≠ b)
    (r2 : ∀ w, Pipeline.arrRef spec2 w ≠ b)
    (h1 : ∀ op ∈ hostOps1 (F := F), Proc.devRef (τ := τ) .tc b ∉ op.writes)
    (h2 : ∀ op ∈ hostOps2 (F := F), Proc.devRef (τ := τ) .tc b ∉ op.writes)
    (h3 : ∀ op ∈ hostOps3 (F := F), Proc.devRef (τ := τ) .tc b ∉ op.writes) :
    W7 m ρ c (Proc.devRef .tc b) = W1 m ρ c (Proc.devRef .tc b) :=
  (StableHlo.after_of_forall_not_mem (b := Proc.devRef .tc b) hostOps3 (W6 m ρ c) h3).trans
    ((W6_of_ne m ρ c b r2).trans (keep5 m ρ c b r0 r1 h1 h2))

end Walk

/-! ## Stretch 0 -/

theorem s0_v13 : W1 m ρ c (Proc.devRef .tc main_v13) = Terms.neighbourSum32 (m ((c : Thread nD τ).loc main_arg0)) (m ((c : Thread nD τ).loc main_arg1)) := by
  show StableHlo.after hostOps0 (W0 m ρ c) (Proc.devRef .tc main_v13) = _
  after_results
  rfl
theorem s0_v14 : W1 m ρ c (Proc.devRef .tc main_v14) = Terms.biasRow16 (m ((c : Thread nD τ).loc main_arg5)) := by
  show StableHlo.after hostOps0 (W0 m ρ c) (Proc.devRef .tc main_v14) = _
  after_results
  rfl
theorem s0_v1 : W1 m ρ c (Proc.devRef .tc main_v1) = Terms.sources (m ((c : Thread nD τ).loc main_arg1)) := by
  show StableHlo.after hostOps0 (W0 m ρ c) (Proc.devRef .tc main_v1) = _
  after_results
  rfl
theorem s0_v3 : W1 m ρ c (Proc.devRef .tc main_v3) = Terms.targets (m ((c : Thread nD τ).loc main_arg1)) := by
  show StableHlo.after hostOps0 (W0 m ρ c) (Proc.devRef .tc main_v3) = _
  after_results
  rfl
theorem s0_arg0 : W1 m ρ c (Proc.devRef .tc main_arg0) = (m ((c : Thread nD τ).loc main_arg0)) :=
  at1 m ρ c main_arg0 (by no_write hostOps0)
theorem s0_arg2 : W1 m ρ c (Proc.devRef .tc main_arg2) = (m ((c : Thread nD τ).loc main_arg2)) :=
  at1 m ρ c main_arg2 (by no_write hostOps0)
theorem s0_arg3 : W1 m ρ c (Proc.devRef .tc main_arg3) = (m ((c : Thread nD τ).loc main_arg3)) :=
  at1 m ρ c main_arg3 (by no_write hostOps0)
theorem s0_arg4 : W1 m ρ c (Proc.devRef .tc main_arg4) = (m ((c : Thread nD τ).loc main_arg4)) :=
  at1 m ρ c main_arg4 (by no_write hostOps0)
theorem s0_arg6 : W1 m ρ c (Proc.devRef .tc main_arg6) = (m ((c : Thread nD τ).loc main_arg6)) :=
  at1 m ρ c main_arg6 (by no_write hostOps0)
theorem s0_arg7 : W1 m ρ c (Proc.devRef .tc main_arg7) = (m ((c : Thread nD τ).loc main_arg7)) :=
  at1 m ρ c main_arg7 (by no_write hostOps0)
theorem s0_arg8 : W1 m ρ c (Proc.devRef .tc main_arg8) = (m ((c : Thread nD τ).loc main_arg8)) :=
  at1 m ρ c main_arg8 (by no_write hostOps0)
theorem s0_arg9 : W1 m ρ c (Proc.devRef .tc main_arg9) = (m ((c : Thread nD τ).loc main_arg9)) :=
  at1 m ρ c main_arg9 (by no_write hostOps0)
theorem s0_arg10 : W1 m ρ c (Proc.devRef .tc main_arg10) = (m ((c : Thread nD τ).loc main_arg10)) :=
  at1 m ρ c main_arg10 (by no_write hostOps0)
theorem s0_arg11 : W1 m ρ c (Proc.devRef .tc main_arg11) = (m ((c : Thread nD τ).loc main_arg11)) :=
  at1 m ρ c main_arg11 (by no_write hostOps0)
theorem s0_arg12 : W1 m ρ c (Proc.devRef .tc main_arg12) = (m ((c : Thread nD τ).loc main_arg12)) :=
  at1 m ρ c main_arg12 (by no_write hostOps0)
theorem s0_arg13 : W1 m ρ c (Proc.devRef .tc main_arg13) = (m ((c : Thread nD τ).loc main_arg13)) :=
  at1 m ρ c main_arg13 (by no_write hostOps0)

/-- What stretch 0 left in the edge rows' buffers is there at region 0's exit: they are not among region 0's arrays. -/
private theorem w2_v1 : W2 m ρ c (Proc.devRef .tc main_v1) = Terms.sources (m ((c : Thread nD τ).loc main_arg1)) :=
  (W2_of_ne m ρ c main_v1 (by decide)).trans (s0_v1 m ρ c)
private theorem w2_v3 : W2 m ρ c (Proc.devRef .tc main_v3) = Terms.targets (m ((c : Thread nD τ).loc main_arg1)) :=
  (W2_of_ne m ρ c main_v3 (by decide)).trans (s0_v3 m ρ c)
private theorem w2_arg8 : W2 m ρ c (Proc.devRef .tc main_arg8) = (m ((c : Thread nD τ).loc main_arg8)) :=
  (W2_of_ne m ρ c main_arg8 (by decide)).trans (s0_arg8 m ρ c)

/-! ## Stretch 1 (entered from region 0's exit contents) -/

theorem s1_v25 : W3 m ρ c (Proc.devRef .tc main_v25) = Terms.neighbourSum16 (W2 m ρ c (Proc.devRef .tc main_v15)) (m ((c : Thread nD τ).loc main_arg1)) := by
  show StableHlo.after hostOps1 (W2 m ρ c) (Proc.devRef .tc main_v25) = _
  after_results
  rw [w2_v1, w2_v3]
  rfl
theorem s1_v26 : W3 m ρ c (Proc.devRef .tc main_v26) = Terms.biasRow16 (m ((c : Thread nD τ).loc main_arg8)) := by
  show StableHlo.after hostOps1 (W2 m ρ c) (Proc.devRef .tc main_v26) = _
  after_results
  rw [w2_arg8]
  rfl
theorem s1_v15 : W3 m ρ c (Proc.devRef .tc main_v15) = W2 m ρ c (Proc.devRef .tc main_v15) :=
  StableHlo.after_of_forall_not_mem (b := (Proc.devRef .tc main_v15)) hostOps1 (W2 m ρ c) (by no_write hostOps1)
theorem s1_arg6 : W3 m ρ c (Proc.devRef .tc main_arg6) = (m ((c : Thread nD τ).loc main_arg6)) :=
  (keep3 m ρ c main_arg6 (by decide) (by no_write hostOps1)).trans (s0_arg6 m ρ c)
theorem s1_arg7 : W3 m ρ c (Proc.devRef .tc main_arg7) = (m ((c : Thread nD τ).loc main_arg7)) :=
  (keep3 m ρ c main_arg7 (by decide) (by no_write hostOps1)).trans (s0_arg7 m ρ c)

/-- What stretch 0 left in the edge rows' buffers, and the arguments, at region 1's exit. -/
private theorem w4_v1 : W4 m ρ c (Proc.devRef .tc main_v1) = Terms.sources (m ((c : Thread nD τ).loc main_arg1)) :=
  (W4_of_ne m ρ c main_v1 (by decide)).trans ((keep3 m ρ c main_v1 (by decide) (by no_write hostOps1)).trans (s0_v1 m ρ c))
private theorem w4_v3 : W4 m ρ c (Proc.devRef .tc main_v3) = Terms.targets (m ((c : Thread nD τ).loc main_arg1)) :=
  (W4_of_ne m ρ c main_v3 (by decide)).trans ((keep3 m ρ c main_v3 (by decide) (by no_write hostOps1)).trans (s0_v3 m ρ c))
private theorem w4_arg11 : W4 m ρ c (Proc.devRef .tc main_arg11) = (m ((c : Thread nD τ).loc main_arg11)) :=
  (W4_of_ne m ρ c main_arg11 (by decide)).trans ((keep3 m ρ c main_arg11 (by decide) (by no_write hostOps1)).trans (s0_arg11 m ρ c))

/-! ## Stretch 2 (entered from region 1's exit contents) -/

theorem s2_v37 : W5 m ρ c (Proc.devRef .tc main_v37) = Terms.neighbourSum16 (W4 m ρ c (Proc.devRef .tc main_v27)) (m ((c : Thread nD τ).loc main_arg1)) := by
  show StableHlo.after hostOps2 (W4 m ρ c) (Proc.devRef .tc main_v37) = _
  after_results
  rw [w4_v1, w4_v3]
  rfl
theorem s2_v38 : W5 m ρ c (Proc.devRef .tc main_v38) = Terms.biasRow16 (m ((c : Thread nD τ).loc main_arg11)) := by
  show StableHlo.after hostOps2 (W4 m ρ c) (Proc.devRef .tc main_v38) = _
  after_results
  rw [w4_arg11]
  rfl
theorem s2_v27 : W5 m ρ c (Proc.devRef .tc main_v27) = W4 m ρ c (Proc.devRef .tc main_v27) :=
  StableHlo.after_of_forall_not_mem (b := (Proc.devRef .tc main_v27)) hostOps2 (W4 m ρ c) (by no_write hostOps2)
theorem s2_arg9 : W5 m ρ c (Proc.devRef .tc main_arg9) = (m ((c : Thread nD τ).loc main_arg9)) :=
  (keep5 m ρ c main_arg9 (by decide) (by decide) (by no_write hostOps1) (by no_write hostOps2)).trans (s0_arg9 m ρ c)
theorem s2_arg10 : W5 m ρ c (Proc.devRef .tc main_arg10) = (m ((c : Thread nD τ).loc main_arg10)) :=
  (keep5 m ρ c main_arg10 (by decide) (by decide) (by no_write hostOps1) (by no_write hostOps2)).trans (s0_arg10 m ρ c)

/-- The arguments stretch 3 reads, at region 2's exit. -/
private theorem w6_arg2 : W6 m ρ c (Proc.devRef .tc main_arg2) = (m ((c : Thread nD τ).loc main_arg2)) :=
  (W6_of_ne m ρ c main_arg2 (by decide)).trans
    ((keep5 m ρ c main_arg2 (by decide) (by decide) (by no_write hostOps1) (by no_write hostOps2)).trans (s0_arg2 m ρ c))
private theorem w6_arg13 : W6 m ρ c (Proc.devRef .tc main_arg13) = (m ((c : Thread nD τ).loc main_arg13)) :=
  (W6_of_ne m ρ c main_arg13 (by decide)).trans
    ((keep5 m ρ c main_arg13 (by decide) (by decide) (by no_write hostOps1) (by no_write hostOps2)).trans (s0_arg13 m ρ c))

/-! ## Stretch 3 (entered from region 2's exit contents) -/

theorem s3_v42 : W7 m ρ c (Proc.devRef .tc main_v42) = Terms.pooled (W6 m ρ c (Proc.devRef .tc main_v39)) (m ((c : Thread nD τ).loc main_arg2)) := by
  show StableHlo.after hostOps3 (W6 m ρ c) (Proc.devRef .tc main_v42) = _
  after_results
  rw [w6_arg2]
  rfl
theorem s3_v43 : W7 m ρ c (Proc.devRef .tc main_v43) = Terms.biasRow2 (m ((c : Thread nD τ).loc main_arg13)) := by
  show StableHlo.after hostOps3 (W6 m ρ c) (Proc.devRef .tc main_v43) = _
  after_results
  rw [w6_arg13]
  rfl
theorem s3_arg12 : W7 m ρ c (Proc.devRef .tc main_arg12) = (m ((c : Thread nD τ).loc main_arg12)) :=
  (keep7 m ρ c main_arg12 (by decide) (by decide) (by decide) (by no_write hostOps1) (by no_write hostOps2) (by no_write hostOps3)).trans
    (s0_arg12 m ρ c)

end Cert.KernelIdeal.Value

end
-- ==== Proof.Spec.lean ====
/-
  The layer a graph convolution applies to every node, and the classifier's layer, as functions of tables of
  extended reals, entry by entry.

  A node's new feature row is the sum of two matrix products and a bias row: entry (p, j) is
    sum over q of a (p, q) * wa (q, j)  +  sum over q of x (p, q) * wx (q, j)  +  b (0, j),
  where a is the table of summed neighbour features and x the table of the nodes' own features. Two of the three
  layers then pass each entry through the leaky rectifier: v itself where v is positive, slope * v elsewhere. The
  classifier is one product and a bias row.

  The rectifier is written in programs in two ways that agree on every extended real: "v if v > 0 else slope * v" and
  "v if v >= 0 else slope * v" differ only at v = 0, where slope * 0 = 0 = v.
-/
import Idealize.ShloMosaic.PureOps.Ideal
import Idealize.ShloMosaic.PureOps.Ideal.Laws
import Idealize.ShloMosaic.Lib.ValueIdx

noncomputable section

open scoped BigOperators

namespace Cert.GraphNet

open Idealize.ShloMosaic Idealize.ShloMosaic.ValueIdx

/-- A table of n rows and k columns. -/
abbrev Tab (n k : Nat) : Shape := ⟨2, ![n, k]⟩

/-- The rectifier's slope below zero: the binary32 value nearest to 1/100, as both programs write it. -/
def slope : EReal := Ideal.ofBits .f32 0x3C23D70A#32

/-- The leaky rectifier on the extended reals. -/
def leaky (v : EReal) : EReal := if 0 < v then v else slope * v

/-- Selected by "v > 0". -/
theorem leaky_of_gt (v : EReal) : Scalar.select (Ideal.cmp .ogt v 0) v (slope * v) = leaky v := by
  unfold leaky Ideal.cmp Scalar.select
  by_cases h : 0 < v
  · simp [h]
  · simp [h]

/-- Selected by "v >= 0": at v = 0 the other branch is slope * 0 = 0 = v. -/
theorem leaky_of_ge (v : EReal) : Scalar.select (Ideal.cmp .oge v 0) v (slope * v) = leaky v := by
  unfold leaky Ideal.cmp Scalar.select
  by_cases h : 0 < v
  · simp [h, le_of_lt h]
  · by_cases h0 : v = 0
    · subst h0; simp
    · have : ¬ (0 : EReal) ≤ v := fun hle => h (lt_of_le_of_ne hle (Ne.symm h0))
      simp [h, this]

/-- Two products and a bias row: entry (p, j) is sum_q a (p, q) * wa (q, j) + sum_q x (p, q) * wx (q, j) + b (0, j). -/
def twoProducts {n k c : Nat} (a x : (Tab n k).Idx → EReal) (wa wx : (Tab k c).Idx → EReal)
    (b : (Tab 1 c).Idx → EReal) : (Tab n c).Idx → EReal := fun i =>
  (∑ q : Fin k, a (ix2 (i 0) q) * wa (ix2 q (i 1))) + (∑ q : Fin k, x (ix2 (i 0) q) * wx (ix2 q (i 1)))
    + b (ix2 (0 : Fin 1) (i 1))

/-- One product and a bias row: entry (p, j) is sum_q x (p, q) * w (q, j) + b (0, j). -/
def oneProduct {n k c : Nat} (x : (Tab n k).Idx → EReal) (w : (Tab k c).Idx → EReal)
    (b : (Tab 1 c).Idx → EReal) : (Tab n c).Idx → EReal := fun i =>
  (∑ q : Fin k, x (ix2 (i 0) q) * w (ix2 q (i 1))) + b (ix2 (0 : Fin 1) (i 1))

/-- A rectified layer: the rectifier of every entry of two products and a bias row. -/
def rectified {n k c : Nat} (a x : (Tab n k).Idx → EReal) (wa wx : (Tab k c).Idx → EReal)
    (b : (Tab 1 c).Idx → EReal) : (Tab n c).Idx → EReal := fun i => leaky (twoProducts a x wa wx b i)

theorem twoProducts_ix2 {n k c : Nat} (a x : (Tab n k).Idx → EReal) (wa wx : (Tab k c).Idx → EReal)
    (b : (Tab 1 c).Idx → EReal) (p : Fin n) (j : Fin c) :
    twoProducts a x wa wx b (ix2 p j)
      = (∑ q : Fin k, a (ix2 p q) * wa (ix2 q j)) + (∑ q : Fin k, x (ix2 p q) * wx (ix2 q j)) + b (ix2 (0 : Fin 1) j) := rfl

theorem oneProduct_ix2 {n k c : Nat} (x : (Tab n k).Idx → EReal) (w : (Tab k c).Idx → EReal)
    (b : (Tab 1 c).Idx → EReal) (p : Fin n) (j : Fin c) :
    oneProduct x w b (ix2 p j) = (∑ q : Fin k, x (ix2 p q) * w (ix2 q j)) + b (ix2 (0 : Fin 1) j) := rfl

end Cert.GraphNet

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.KBody.lean ====
/-
  What each kernel body computes from the blocks it loads, entry by entry, on the extended reals.

  A graph-convolution body rounds its four matrix operands to bfloat16 (the identity on extended reals), multiplies the
  block of summed neighbour features by one weight matrix and the block of node features by the other, each product
  into a zero accumulator, adds the two products and the bias row repeated down the rows, and (in the first two
  layers) passes every entry through the leaky rectifier written as "v if v > 0 else slope * v". The classifier body is
  one product and the bias row.
-/
import proofs.«174008_j75505525064540_1_alg».proof.Proof.Gen.KernelIdeal.Skeleton
import proofs.«174008_j75505525064540_1_alg».proof.Proof.Spec
import proofs.«174008_j75505525064540_1_alg».proof.Proof.LibPlainDot
import proofs.«174008_j75505525064540_1_alg».proof.Proof.LibRowBroadcast

noncomputable section

namespace Cert.KernelIdeal.Body

open Idealize.ShloMosaic Idealize.ShloMosaic.ValueIdx Cert.KernelIdeal Cert.KernelIdeal.Gen Cert.GraphNet

/-- The rectifier as the bodies write it, "v if v > 0 else slope * v" over a whole block, read at an entry. -/
private theorem rectify_apply {s : Shape} (v : FVec Ideal s .f32) (i : s.Idx) :
    select (cmpf .ogt v (broadcast s (Scalar.ofBits (F := Ideal) .f32 0x00000000#32))) v
      (mulf (broadcast s (Scalar.ofBits (F := Ideal) .f32 0x3C23D70A#32)) v) i = leaky (v i) := by
  show Scalar.select (Ideal.cmp .ogt (v i) (Ideal.ofBits .f32 0x00000000#32)) (v i) (slope * v i) = _
  rw [Ideal.ofBits_zero_f32]
  exact leaky_of_gt _

/-- Two products of operands rounded to bfloat16, each into a zero accumulator, added, plus the bias row repeated down
    the rows: at entry (p, q) the two sums over the contraction index and the bias row's entry (0, q). -/
private theorem twoProducts_apply {n k c : Nat} (d : DotDims (Tab n k) (Tab k c) (Tab n c))
    (hlc : d.lhsContracting = [1]) (hrc : d.rhsContracting = [0])
    (hln : d.lhsNonContracting = [0]) (hrn : d.rhsNonContracting = [1])
    (hlb : d.lhsBatch = []) (hrb : d.rhsBatch = [])
    (hb : (Tab 1 c).Broadcasts (Tab n c)) (hw : FTy.bf16.bits < FTy.f32.bits)
    (a x : FVec Ideal (Tab n k) .f32) (wa wx : FVec Ideal (Tab k c) .f32) (b : FVec Ideal (Tab 1 c) .f32)
    (p : Fin n) (q : Fin c) :
    addf
        (addf (matmul d none (truncf .bf16 a hw) (truncf .bf16 wa hw) (constant (Tab n c) .f32 0x00000000#32))
          (matmul d none (truncf .bf16 x hw) (truncf .bf16 wx hw) (constant (Tab n c) .f32 0x00000000#32)))
        (broadcastTo (Tab n c) b hb) (ix2 p q)
      = twoProducts a x wa wx b (ix2 p q) :=
  (congrArg₂ (· + ·)
    (congrArg₂ (· + ·)
      (Cert.LibPlainDot.matmul_zero_apply d hlc hrc hln hrn hlb hrb none (truncf (F := Ideal) .bf16 a hw)
        (truncf (F := Ideal) .bf16 wa hw) p q)
      (Cert.LibPlainDot.matmul_zero_apply d hlc hrc hln hrn hlb hrb none (truncf (F := Ideal) .bf16 x hw)
        (truncf (F := Ideal) .bf16 wx hw) p q))
    (RowBroadcast.broadcastTo_row b hb p q)).trans rfl

/-- One product of operands rounded to bfloat16 into a zero accumulator, plus the bias row repeated down the rows. -/
private theorem oneProduct_apply {n k c : Nat} (d : DotDims (Tab n k) (Tab k c) (Tab n c))
    (hlc : d.lhsContracting = [1]) (hrc : d.rhsContracting = [0])
    (hln : d.lhsNonContracting = [0]) (hrn : d.rhsNonContracting = [1])
    (hlb : d.lhsBatch = []) (hrb : d.rhsBatch = [])
    (hb : (Tab 1 c).Broadcasts (Tab n c)) (hw : FTy.bf16.bits < FTy.f32.bits)
    (x : FVec Ideal (Tab n k) .f32) (w : FVec Ideal (Tab k c) .f32) (b : FVec Ideal (Tab 1 c) .f32)
    (p : Fin n) (q : Fin c) :
    addf (matmul d none (truncf .bf16 x hw) (truncf .bf16 w hw) (constant (Tab n c) .f32 0x00000000#32))
        (broadcastTo (Tab n c) b hb) (ix2 p q)
      = oneProduct x w b (ix2 p q) :=
  (congrArg₂ (· + ·)
    (Cert.LibPlainDot.matmul_zero_apply d hlc hrc hln hrn hlb hrb none (truncf (F := Ideal) .bf16 x hw)
      (truncf (F := Ideal) .bf16 w hw) p q)
    (RowBroadcast.broadcastTo_row b hb p q)).trans rfl

/-- The first layer's body: rectified two products of 5000 x 32 blocks with 32 x 16 weights. -/
theorem layer1 (x0 x1 : Vec Ideal S5000x32 .f32) (x2 x3 : Vec Ideal S32x16 .f32) (x4 : Vec Ideal S1x16 .f32) :
    k0_pay1 (F := Ideal) x0 x1 x2 x3 x4 = rectified x0 x1 x2 x3 x4 := by
  funext j
  obtain ⟨p, q, rfl⟩ : ∃ (p : Fin 5000) (q : Fin 16), j = ix2 p q := ⟨j 0, j 1, eq_ix2 j⟩
  unfold k0_pay1
  rw [shapeCast_self, shapeCast_self]
  refine (rectify_apply _ _).trans (congrArg leaky ?_)
  exact twoProducts_apply dot_S5000x32_S32x16_S5000x16_1_0_0_1_n_n rfl rfl rfl rfl rfl rfl
    broadcasts_S1x16_S5000x16 bitsLt_bf16_f32 x0 x1 x2 x3 x4 p q

/-- The second layer's body: the same over 5000 x 16 blocks and 16 x 16 weights. -/
theorem layer2 (x0 x1 : Vec Ideal S5000x16 .f32) (x2 x3 : Vec Ideal S16x16 .f32) (x4 : Vec Ideal S1x16 .f32) :
    k1_pay1 (F := Ideal) x0 x1 x2 x3 x4 = rectified x0 x1 x2 x3 x4 := by
  funext j
  obtain ⟨p, q, rfl⟩ : ∃ (p : Fin 5000) (q : Fin 16), j = ix2 p q := ⟨j 0, j 1, eq_ix2 j⟩
  unfold k1_pay1
  rw [shapeCast_self, shapeCast_self, shapeCast_self]
  refine (rectify_apply _ _).trans (congrArg leaky ?_)
  exact twoProducts_apply dot_S5000x16_S16x16_S5000x16_1_0_0_1_n_n rfl rfl rfl rfl rfl rfl
    broadcasts_S1x16_S5000x16 bitsLt_bf16_f32 x0 x1 x2 x3 x4 p q

/-- The third layer's body: two products and the bias row, no rectifier. -/
theorem layer3 (x0 x1 : Vec Ideal S5000x16 .f32) (x2 x3 : Vec Ideal S16x16 .f32) (x4 : Vec Ideal S1x16 .f32) :
    k2_pay1 (F := Ideal) x0 x1 x2 x3 x4 = twoProducts x0 x1 x2 x3 x4 := by
  funext j
  obtain ⟨p, q, rfl⟩ : ∃ (p : Fin 5000) (q : Fin 16), j = ix2 p q := ⟨j 0, j 1, eq_ix2 j⟩
  unfold k2_pay1
  rw [shapeCast_self, shapeCast_self, shapeCast_self]
  exact twoProducts_apply dot_S5000x16_S16x16_S5000x16_1_0_0_1_n_n rfl rfl rfl rfl rfl rfl
    broadcasts_S1x16_S5000x16 bitsLt_bf16_f32 x0 x1 x2 x3 x4 p q

/-- The classifier's body: one product of the 512 x 16 pooled table with the 16 x 2 weights, and the bias row. -/
theorem classifier (x0 : Vec Ideal S512x16 .f32) (x1 : Vec Ideal S16x2 .f32) (x2 : Vec Ideal S1x2 .f32) :
    k3_pay1 (F := Ideal) x0 x1 x2 = oneProduct x0 x1 x2 := by
  funext j
  obtain ⟨p, q, rfl⟩ : ∃ (p : Fin 512) (q : Fin 2), j = ix2 p q := ⟨j 0, j 1, eq_ix2 j⟩
  unfold k3_pay1
  rw [shapeCast_self, shapeCast_self]
  exact oneProduct_apply dot_S512x16_S16x2_S512x2_1_0_0_1_n_n rfl rfl rfl rfl rfl rfl
    broadcasts_S1x2_S512x2 bitsLt_bf16_f32 x0 x1 x2 p q

end Cert.KernelIdeal.Body

end
-- ==== Proof.KArrays.lean ====
/-
  What each kernel region leaves in its output array, as one function of the arrays it found.

  A convolution region walks the node axis in 20 blocks of 5000 rows. At block t the body reads rows
  5000 t .. 5000 t + 4999 of the summed-neighbour table and of the node table, the two whole weight matrices and the
  whole bias row, and writes rows 5000 t .. 5000 t + 4999 of the output. An output row depends on the same row of the
  two tables only, so the 20 written blocks are the restrictions of one whole-table function, and they cover the
  output. The classifier region has one point whose blocks are the whole arrays.
-/
import proofs.«174008_j75505525064540_1_alg».proof.Proof.Gen.KernelIdeal.Frame
import proofs.«174008_j75505525064540_1_alg».proof.Proof.KBody

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.GraphNet
open Idealize.ShloMosaic.Pipeline (Dat Cfg Window)

variable (V : (c : Dev nD) → (b : Ref sig .tc) → Buf (Elt Ideal) ((c : Thread nD τ).loc b))

/-- The origin of a table, as the constant function. -/
theorem origin2 : (![0, 0] : Fin 2 → Nat) = fun _ => 0 := funext fun a => by fin_cases a <;> rfl

/-- Two indices of a table are equal when their row numbers and their column numbers are. -/
theorem idx2_ext {n0 n1 : Nat} (p q : (⟨2, ![n0, n1]⟩ : Shape).Idx) (h0 : (p 0).val = (q 0).val)
    (h1 : (p 1).val = (q 1).val) : p = q := by
  funext a; apply Fin.ext
  match a with
  | ⟨0, _⟩ => exact h0
  | ⟨1, _⟩ => exact h1

/-! ## Region 0: the first layer -/

/-- The block indices at point t: the two tables and the output are at block (t, 0); the weights and the bias row
    stay at block (0, 0). -/
theorem blocks0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is rows 5000 t .. 5000 t + 4999 of the layer of the whole tables: entry (p, j) of the
    block reads row p of the two table blocks, which is row 5000 t + p of the tables, and column j of the weights and
    of the bias row, which are whole. -/
theorem written0 (c : Dev nD) (t : Fin cfg0.N) :
    (dat0 (F := Ideal) V c).flushed 5 t = ((cfg0.win 5).blk t).view.read (Elt Ideal)
      (rectified (V c main_v13) (V c main_arg0) (V c main_arg3) (V c main_arg4) (V c main_v14)) := by
  show (cfg0.win 5).cut (grid0.coords t) ((dat0 (F := Ideal) V c).after 5 t) = _
  rw [after0_5]
  unfold out0_5
  rw [View.canon_unit_zero origin2]
  simp only [View.ld_unit_zero (S := S5000x32) origin2,
    View.ld_unit_zero (S := S32x16) origin2,
    View.ld_unit_zero (S := S1x16) origin2]
  rw [Body.layer1]
  obtain ⟨a0, a1, x0, x1, wa0, wa1, wx0, wx1, b0, b1, o0, o1⟩ := blocks0 t
  apply funext; intro (j : S5000x16.Idx)
  show leaky (twoProducts (iblk0 V c 0 t) (iblk0 V c 1 t) (iblk0 V c 2 t) (iblk0 V c 3 t) (iblk0 V c 4 t) j)
    = leaky (twoProducts (V c main_v13) (V c main_arg0) (V c main_arg3) (V c main_arg4) (V c main_v14)
        (((cfg0.win 5).blk t).view.emb j))
  refine congrArg leaky ?_
  unfold twoProducts
  refine congrArg₂ (· + ·) (congrArg₂ (· + ·)
    (Finset.sum_congr rfl fun q _ => congrArg₂ (· * ·) ?_ ?_)
    (Finset.sum_congr rfl fun q _ => congrArg₂ (· * ·) ?_ ?_)) ?_
  · show V c main_v13 (((cfg0.win 0).blk t).view.emb (ix2 (j 0) q)) = _
    refine congrArg (V c main_v13) (idx2_ext _ _ ?_ ?_)
    · show win0_0.index t (0 : Fin 2) * 5000 + 1 * (j 0).val = win0_5.index t (0 : Fin 2) * 5000 + 1 * (j 0).val
      omega
    · show win0_0.index t (1 : Fin 2) * 32 + 1 * q.val = q.val
      omega
  · show V c main_arg3 (((cfg0.win 2).blk t).view.emb (ix2 q (j 1))) = _
    refine congrArg (V c main_arg3) (idx2_ext _ _ ?_ ?_)
    · show win0_2.index t (0 : Fin 2) * 32 + 1 * q.val = q.val
      omega
    · show win0_2.index t (1 : Fin 2) * 16 + 1 * (j 1).val = win0_5.index t (1 : Fin 2) * 16 + 1 * (j 1).val
      omega
  · show V c main_arg0 (((cfg0.win 1).blk t).view.emb (ix2 (j 0) q)) = _
    refine congrArg (V c main_arg0) (idx2_ext _ _ ?_ ?_)
    · show win0_1.index t (0 : Fin 2) * 5000 + 1 * (j 0).val = win0_5.index t (0 : Fin 2) * 5000 + 1 * (j 0).val
      omega
    · show win0_1.index t (1 : Fin 2) * 32 + 1 * q.val = q.val
      omega
  · show V c main_arg4 (((cfg0.win 3).blk t).view.emb (ix2 q (j 1))) = _
    refine congrArg (V c main_arg4) (idx2_ext _ _ ?_ ?_)
    · show win0_3.index t (0 : Fin 2) * 32 + 1 * q.val = q.val
      omega
    · show win0_3.index t (1 : Fin 2) * 16 + 1 * (j 1).val = win0_5.index t (1 : Fin 2) * 16 + 1 * (j 1).val
      omega
  · show V c main_v14 (((cfg0.win 4).blk t).view.emb (ix2 (0 : Fin 1) (j 1))) = _
    refine congrArg (V c main_v14) (idx2_ext _ _ ?_ ?_)
    · show win0_4.index t (0 : Fin 2) * 1 + 1 * 0 = 0
      omega
    · show win0_4.index t (1 : Fin 2) * 16 + 1 * (j 1).val = win0_5.index t (1 : Fin 2) * 16 + 1 * (j 1).val
      omega

/-- An index of the output table is in point t's block iff each coordinate is in the block's range on its axis. -/
theorem mem_block0 (t : Fin cfg0.N) (i : S100000x16.Idx) :
    i ∈ ((cfg0.win 5).blk t).view.set ↔ ∀ a : Fin 2, win0_5.index t a * S5000x16.size a ≤ (i a).val
      ∧ (i a).val < win0_5.index t a * S5000x16.size a + S5000x16.size a := by
  show i ∈ ((View.whole main_v15).slice (win0_5.rect t)).set ↔ _
  rw [View.set_slice_whole, Rect.mem_set_unit]
  exact Iff.rfl

/-- Row r of the output is written at point r / 5000. -/
theorem cover0 (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  have ht : t.val = (i 0).val / 5000 := rfl
  obtain ⟨_, _, _, _, _, _, _, _, _, _, o0, o1⟩ := blocks0 t
  refine ⟨t, flush0_5 t, ?_⟩
  rw [mem_block0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 16 ≤ (i 1).val ∧ (i 1).val < win0_5.index t (1 : Fin 2) * 16 + 16
    omega

/-- Region 0 (the first layer): the output table is the rectified two products of the whole tables it found. -/
theorem layer1_array (c : Dev nD) :
    (dat0 (F := Ideal) V c).arrAt 5 cfg0.N
      = rectified (V c main_v13) (V c main_arg0) (V c main_arg3) (V c main_arg4) (V c main_v14) :=
  (dat0 (F := Ideal) V c).arrAt_eq_of_cover 5
    (rectified (V c main_v13) (V c main_arg0) (V c main_arg3) (V c main_arg4) (V c main_v14))
    (fun t _ => written0 V c t) cover0

/-! ## Region 1: the second layer -/

/-- The block indices at point t: the two tables and the output are at block (t, 0); the weights and the bias row
    stay at block (0, 0). -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is rows 5000 t .. 5000 t + 4999 of the layer of the whole tables: entry (p, j) of the
    block reads row p of the two table blocks, which is row 5000 t + p of the tables, and column j of the weights and
    of the bias row, which are whole. -/
theorem written1 (c : Dev nD) (t : Fin cfg1.N) :
    (dat1 (F := Ideal) V c).flushed 5 t = ((cfg1.win 5).blk t).view.read (Elt Ideal)
      (rectified (V c main_v25) (V c main_v15) (V c main_arg6) (V c main_arg7) (V c main_v26)) := by
  show (cfg1.win 5).cut (grid1.coords t) ((dat1 (F := Ideal) V c).after 5 t) = _
  rw [after1_5]
  unfold out1_5
  rw [View.canon_unit_zero origin2]
  simp only [View.ld_unit_zero (S := S5000x16) origin2,
    View.ld_unit_zero (S := S16x16) origin2,
    View.ld_unit_zero (S := S1x16) origin2]
  rw [Body.layer2]
  obtain ⟨a0, a1, x0, x1, wa0, wa1, wx0, wx1, b0, b1, o0, o1⟩ := blocks1 t
  apply funext; intro (j : S5000x16.Idx)
  show leaky (twoProducts (iblk1 V c 0 t) (iblk1 V c 1 t) (iblk1 V c 2 t) (iblk1 V c 3 t) (iblk1 V c 4 t) j)
    = leaky (twoProducts (V c main_v25) (V c main_v15) (V c main_arg6) (V c main_arg7) (V c main_v26)
        (((cfg1.win 5).blk t).view.emb j))
  refine congrArg leaky ?_
  unfold twoProducts
  refine congrArg₂ (· + ·) (congrArg₂ (· + ·)
    (Finset.sum_congr rfl fun q _ => congrArg₂ (· * ·) ?_ ?_)
    (Finset.sum_congr rfl fun q _ => congrArg₂ (· * ·) ?_ ?_)) ?_
  · show V c main_v25 (((cfg1.win 0).blk t).view.emb (ix2 (j 0) q)) = _
    refine congrArg (V c main_v25) (idx2_ext _ _ ?_ ?_)
    · show win1_0.index t (0 : Fin 2) * 5000 + 1 * (j 0).val = win1_5.index t (0 : Fin 2) * 5000 + 1 * (j 0).val
      omega
    · show win1_0.index t (1 : Fin 2) * 16 + 1 * q.val = q.val
      omega
  · show V c main_arg6 (((cfg1.win 2).blk t).view.emb (ix2 q (j 1))) = _
    refine congrArg (V c main_arg6) (idx2_ext _ _ ?_ ?_)
    · show win1_2.index t (0 : Fin 2) * 16 + 1 * q.val = q.val
      omega
    · show win1_2.index t (1 : Fin 2) * 16 + 1 * (j 1).val = win1_5.index t (1 : Fin 2) * 16 + 1 * (j 1).val
      omega
  · show V c main_v15 (((cfg1.win 1).blk t).view.emb (ix2 (j 0) q)) = _
    refine congrArg (V c main_v15) (idx2_ext _ _ ?_ ?_)
    · show win1_1.index t (0 : Fin 2) * 5000 + 1 * (j 0).val = win1_5.index t (0 : Fin 2) * 5000 + 1 * (j 0).val
      omega
    · show win1_1.index t (1 : Fin 2) * 16 + 1 * q.val = q.val
      omega
  · show V c main_arg7 (((cfg1.win 3).blk t).view.emb (ix2 q (j 1))) = _
    refine congrArg (V c main_arg7) (idx2_ext _ _ ?_ ?_)
    · show win1_3.index t (0 : Fin 2) * 16 + 1 * q.val = q.val
      omega
    · show win1_3.index t (1 : Fin 2) * 16 + 1 * (j 1).val = win1_5.index t (1 : Fin 2) * 16 + 1 * (j 1).val
      omega
  · show V c main_v26 (((cfg1.win 4).blk t).view.emb (ix2 (0 : Fin 1) (j 1))) = _
    refine congrArg (V c main_v26) (idx2_ext _ _ ?_ ?_)
    · show win1_4.index t (0 : Fin 2) * 1 + 1 * 0 = 0
      omega
    · show win1_4.index t (1 : Fin 2) * 16 + 1 * (j 1).val = win1_5.index t (1 : Fin 2) * 16 + 1 * (j 1).val
      omega

/-- An index of the output table is in point t's block iff each coordinate is in the block's range on its axis. -/
theorem mem_block1 (t : Fin cfg1.N) (i : S100000x16.Idx) :
    i ∈ ((cfg1.win 5).blk t).view.set ↔ ∀ a : Fin 2, win1_5.index t a * S5000x16.size a ≤ (i a).val
      ∧ (i a).val < win1_5.index t a * S5000x16.size a + S5000x16.size a := by
  show i ∈ ((View.whole main_v27).slice (win1_5.rect t)).set ↔ _
  rw [View.set_slice_whole, Rect.mem_set_unit]
  exact Iff.rfl

/-- Row r of the output is written at point r / 5000. -/
theorem cover1 (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 20 := N_1
  let t : Fin cfg1.N := ⟨(i 0).val / 5000, by rw [hN]; omega⟩
  have ht : t.val = (i 0).val / 5000 := rfl
  obtain ⟨_, _, _, _, _, _, _, _, _, _, o0, o1⟩ := blocks1 t
  refine ⟨t, flush1_5 t, ?_⟩
  rw [mem_block1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 16 ≤ (i 1).val ∧ (i 1).val < win1_5.index t (1 : Fin 2) * 16 + 16
    omega

/-- Region 1 (the second layer). -/
theorem layer2_array (c : Dev nD) :
    (dat1 (F := Ideal) V c).arrAt 5 cfg1.N
      = rectified (V c main_v25) (V c main_v15) (V c main_arg6) (V c main_arg7) (V c main_v26) :=
  (dat1 (F := Ideal) V c).arrAt_eq_of_cover 5
    (rectified (V c main_v25) (V c main_v15) (V c main_arg6) (V c main_arg7) (V c main_v26))
    (fun t _ => written1 V c t) cover1

/-! ## Region 2: the third layer, no rectifier -/

/-- The block indices at point t: the two tables and the output are at block (t, 0); the weights and the bias row
    stay at block (0, 0). -/
theorem blocks2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is rows 5000 t .. 5000 t + 4999 of the layer of the whole tables: entry (p, j) of the
    block reads row p of the two table blocks, which is row 5000 t + p of the tables, and column j of the weights and
    of the bias row, which are whole. -/
theorem written2 (c : Dev nD) (t : Fin cfg2.N) :
    (dat2 (F := Ideal) V c).flushed 5 t = ((cfg2.win 5).blk t).view.read (Elt Ideal)
      (twoProducts (V c main_v37) (V c main_v27) (V c main_arg9) (V c main_arg10) (V c main_v38)) := by
  show (cfg2.win 5).cut (grid2.coords t) ((dat2 (F := Ideal) V c).after 5 t) = _
  rw [after2_5]
  unfold out2_5
  rw [View.canon_unit_zero origin2]
  simp only [View.ld_unit_zero (S := S5000x16) origin2,
    View.ld_unit_zero (S := S16x16) origin2,
    View.ld_unit_zero (S := S1x16) origin2]
  rw [Body.layer3]
  obtain ⟨a0, a1, x0, x1, wa0, wa1, wx0, wx1, b0, b1, o0, o1⟩ := blocks2 t
  apply funext; intro (j : S5000x16.Idx)
  show twoProducts (iblk2 V c 0 t) (iblk2 V c 1 t) (iblk2 V c 2 t) (iblk2 V c 3 t) (iblk2 V c 4 t) j
    = twoProducts (V c main_v37) (V c main_v27) (V c main_arg9) (V c main_arg10) (V c main_v38)
        (((cfg2.win 5).blk t).view.emb j)
  unfold twoProducts
  refine congrArg₂ (· + ·) (congrArg₂ (· + ·)
    (Finset.sum_congr rfl fun q _ => congrArg₂ (· * ·) ?_ ?_)
    (Finset.sum_congr rfl fun q _ => congrArg₂ (· * ·) ?_ ?_)) ?_
  · show V c main_v37 (((cfg2.win 0).blk t).view.emb (ix2 (j 0) q)) = _
    refine congrArg (V c main_v37) (idx2_ext _ _ ?_ ?_)
    · show win2_0.index t (0 : Fin 2) * 5000 + 1 * (j 0).val = win2_5.index t (0 : Fin 2) * 5000 + 1 * (j 0).val
      omega
    · show win2_0.index t (1 : Fin 2) * 16 + 1 * q.val = q.val
      omega
  · show V c main_arg9 (((cfg2.win 2).blk t).view.emb (ix2 q (j 1))) = _
    refine congrArg (V c main_arg9) (idx2_ext _ _ ?_ ?_)
    · show win2_2.index t (0 : Fin 2) * 16 + 1 * q.val = q.val
      omega
    · show win2_2.index t (1 : Fin 2) * 16 + 1 * (j 1).val = win2_5.index t (1 : Fin 2) * 16 + 1 * (j 1).val
      omega
  · show V c main_v27 (((cfg2.win 1).blk t).view.emb (ix2 (j 0) q)) = _
    refine congrArg (V c main_v27) (idx2_ext _ _ ?_ ?_)
    · show win2_1.index t (0 : Fin 2) * 5000 + 1 * (j 0).val = win2_5.index t (0 : Fin 2) * 5000 + 1 * (j 0).val
      omega
    · show win2_1.index t (1 : Fin 2) * 16 + 1 * q.val = q.val
      omega
  · show V c main_arg10 (((cfg2.win 3).blk t).view.emb (ix2 q (j 1))) = _
    refine congrArg (V c main_arg10) (idx2_ext _ _ ?_ ?_)
    · show win2_3.index t (0 : Fin 2) * 16 + 1 * q.val = q.val
      omega
    · show win2_3.index t (1 : Fin 2) * 16 + 1 * (j 1).val = win2_5.index t (1 : Fin 2) * 16 + 1 * (j 1).val
      omega
  · show V c main_v38 (((cfg2.win 4).blk t).view.emb (ix2 (0 : Fin 1) (j 1))) = _
    refine congrArg (V c main_v38) (idx2_ext _ _ ?_ ?_)
    · show win2_4.index t (0 : Fin 2) * 1 + 1 * 0 = 0
      omega
    · show win2_4.index t (1 : Fin 2) * 16 + 1 * (j 1).val = win2_5.index t (1 : Fin 2) * 16 + 1 * (j 1).val
      omega

/-- An index of the output table is in point t's block iff each coordinate is in the block's range on its axis. -/
theorem mem_block2 (t : Fin cfg2.N) (i : S100000x16.Idx) :
    i ∈ ((cfg2.win 5).blk t).view.set ↔ ∀ a : Fin 2, win2_5.index t a * S5000x16.size a ≤ (i a).val
      ∧ (i a).val < win2_5.index t a * S5000x16.size a + S5000x16.size a := by
  show i ∈ ((View.whole main_v39).slice (win2_5.rect t)).set ↔ _
  rw [View.set_slice_whole, Rect.mem_set_unit]
  exact Iff.rfl

/-- Row r of the output is written at point r / 5000. -/
theorem cover2 (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  have hN : cfg2.N = 20 := N_2
  let t : Fin cfg2.N := ⟨(i 0).val / 5000, by rw [hN]; omega⟩
  have ht : t.val = (i 0).val / 5000 := rfl
  obtain ⟨_, _, _, _, _, _, _, _, _, _, o0, o1⟩ := blocks2 t
  refine ⟨t, flush2_5 t, ?_⟩
  rw [mem_block2]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 16 ≤ (i 1).val ∧ (i 1).val < win2_5.index t (1 : Fin 2) * 16 + 16
    omega

/-- Region 2 (the third layer, no rectifier). -/
theorem layer3_array (c : Dev nD) :
    (dat2 (F := Ideal) V c).arrAt 5 cfg2.N
      = twoProducts (V c main_v37) (V c main_v27) (V c main_arg9) (V c main_arg10) (V c main_v38) :=
  (dat2 (F := Ideal) V c).arrAt_eq_of_cover 5
    (twoProducts (V c main_v37) (V c main_v27) (V c main_arg9) (V c main_arg10) (V c main_v38))
    (fun t _ => written2 V c t) cover2

/-! ## Region 3: the classifier -/

/-- The block indices at the one point: every window is at block (0, 0), the whole array. -/
theorem blocks3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- What the one point writes back is the whole classifier layer of the whole arrays. -/
theorem written3 (c : Dev nD) (t : Fin cfg3.N) :
    (dat3 (F := Ideal) V c).flushed 3 t = ((cfg3.win 3).blk t).view.read (Elt Ideal)
      (oneProduct (V c main_v42) (V c main_arg12) (V c main_v43)) := by
  show (cfg3.win 3).cut (grid3.coords t) ((dat3 (F := Ideal) V c).after 3 t) = _
  rw [after3_3]
  unfold out3_3
  rw [View.canon_unit_zero origin2]
  simp only [View.ld_unit_zero (S := S512x16) origin2, View.ld_unit_zero (S := S16x2) origin2,
    View.ld_unit_zero (S := S1x2) origin2]
  rw [Body.classifier]
  obtain ⟨x0, x1, w0, w1, b0, b1, o0, o1⟩ := blocks3 t
  apply funext; intro (j : S512x2.Idx)
  show oneProduct (iblk3 V c 0 t) (iblk3 V c 1 t) (iblk3 V c 2 t) j
    = oneProduct (V c main_v42) (V c main_arg12) (V c main_v43) (((cfg3.win 3).blk t).view.emb j)
  unfold oneProduct
  refine congrArg₂ (· + ·) (Finset.sum_congr rfl fun q _ => congrArg₂ (· * ·) ?_ ?_) ?_
  · show V c main_v42 (((cfg3.win 0).blk t).view.emb (ix2 (j 0) q)) = _
    refine congrArg (V c main_v42) (idx2_ext _ _ ?_ ?_)
    · show win3_0.index t (0 : Fin 2) * 512 + 1 * (j 0).val = win3_3.index t (0 : Fin 2) * 512 + 1 * (j 0).val
      omega
    · show win3_0.index t (1 : Fin 2) * 16 + 1 * q.val = q.val
      omega
  · show V c main_arg12 (((cfg3.win 1).blk t).view.emb (ix2 q (j 1))) = _
    refine congrArg (V c main_arg12) (idx2_ext _ _ ?_ ?_)
    · show win3_1.index t (0 : Fin 2) * 16 + 1 * q.val = q.val
      omega
    · show win3_1.index t (1 : Fin 2) * 2 + 1 * (j 1).val = win3_3.index t (1 : Fin 2) * 2 + 1 * (j 1).val
      omega
  · show V c main_v43 (((cfg3.win 2).blk t).view.emb (ix2 (0 : Fin 1) (j 1))) = _
    refine congrArg (V c main_v43) (idx2_ext _ _ ?_ ?_)
    · show win3_2.index t (0 : Fin 2) * 1 + 1 * 0 = 0
      omega
    · show win3_2.index t (1 : Fin 2) * 2 + 1 * (j 1).val = win3_3.index t (1 : Fin 2) * 2 + 1 * (j 1).val
      omega

/-- An index of the output is in the point's block iff each coordinate is in the block's range on its axis. -/
theorem mem_block3 (t : Fin cfg3.N) (i : S512x2.Idx) :
    i ∈ ((cfg3.win 3).blk t).view.set ↔ ∀ a : Fin 2, win3_3.index t a * S512x2.size a ≤ (i a).val
      ∧ (i a).val < win3_3.index t a * S512x2.size a + S512x2.size a := by
  show i ∈ ((View.whole main_v44).slice (win3_3.rect t)).set ↔ _
  rw [View.set_slice_whole, Rect.mem_set_unit]
  exact Iff.rfl

/-- The one point's block is the whole output. -/
theorem cover3 (i : S512x2.Idx) :
    ∃ t : Fin cfg3.N, (cfg3.win 3).flush t = true ∧ i ∈ ((cfg3.win 3).blk t).view.set := by
  have hi0 : (i 0).val < 512 := (i 0).isLt
  have hi1 : (i 1).val < 2 := (i 1).isLt
  obtain ⟨_, _, _, _, _, _, o0, o1⟩ := blocks3 t3_0
  refine ⟨t3_0, flush3_3 t3_0, ?_⟩
  rw [mem_block3]
  intro a
  match a with
  | ⟨0, _⟩ =>
    show win3_3.index t3_0 (0 : Fin 2) * 512 ≤ (i 0).val ∧ (i 0).val < win3_3.index t3_0 (0 : Fin 2) * 512 + 512
    omega
  | ⟨1, _⟩ =>
    show win3_3.index t3_0 (1 : Fin 2) * 2 ≤ (i 1).val ∧ (i 1).val < win3_3.index t3_0 (1 : Fin 2) * 2 + 2
    omega

/-- Region 3 (the classifier): one point, whole arrays. -/
theorem classifier_array (c : Dev nD) :
    (dat3 (F := Ideal) V c).arrAt 3 cfg3.N
      = oneProduct (V c main_v42) (V c main_arg12) (V c main_v43) :=
  (dat3 (F := Ideal) V c).arrAt_eq_of_cover 3
    (oneProduct (V c main_v42) (V c main_arg12) (V c main_v43))
    (fun t _ => written3 V c t) cover3

end Cert.KernelIdeal.Arrays

end
-- ==== Proof.Net.lean ====
/-
  The whole network as one function of its fourteen arguments, over the layers of Spec.lean.

  Three things enter as parameters because both programs compute them by the same host operations, which are never
  opened: the neighbour sums (32 and 16 features wide), the per-graph sums, and the layout of a bias vector as a
  one-row table. With them fixed the network is
    h1 = rectified (sum32 x e) x wa1 wx1 (row b1)
    h2 = rectified (sum16 h1 e) h1 wa2 wx2 (row b2)
    h3 = twoProducts (sum16 h2 e) h2 wa3 wx3 (row b3)
    result = oneProduct (pool h3 g) wc (row bc).
-/
import proofs.«174008_j75505525064540_1_alg».proof.Proof.Spec

noncomputable section

namespace Cert.GraphNet

open Idealize.ShloMosaic

/-- The network over its parameters. -/
def net {E G R16 R2 : Type}
    (sum32 : ((Tab 100000 32).Idx → EReal) → E → (Tab 100000 32).Idx → EReal)
    (sum16 : ((Tab 100000 16).Idx → EReal) → E → (Tab 100000 16).Idx → EReal)
    (pool : ((Tab 100000 16).Idx → EReal) → G → (Tab 512 16).Idx → EReal)
    (row16 : R16 → (Tab 1 16).Idx → EReal) (row2 : R2 → (Tab 1 2).Idx → EReal)
    (x : (Tab 100000 32).Idx → EReal) (e : E) (g : G)
    (wa1 wx1 : (Tab 32 16).Idx → EReal) (b1 : R16)
    (wa2 wx2 : (Tab 16 16).Idx → EReal) (b2 : R16)
    (wa3 wx3 : (Tab 16 16).Idx → EReal) (b3 : R16)
    (wc : (Tab 16 2).Idx → EReal) (bc : R2) : (Tab 512 2).Idx → EReal :=
  oneProduct (pool (twoProducts (sum16 (rectified (sum16 (rectified (sum32 x e) x wa1 wx1 (row16 b1)) e)
        (rectified (sum32 x e) x wa1 wx1 (row16 b1)) wa2 wx2 (row16 b2)) e)
      (rectified (sum16 (rectified (sum32 x e) x wa1 wx1 (row16 b1)) e)
        (rectified (sum32 x e) x wa1 wx1 (row16 b1)) wa2 wx2 (row16 b2)) wa3 wx3 (row16 b3)) g) wc (row2 bc)

end Cert.GraphNet

end
-- ==== Proof.KValue.lean ====
/-
  The kernel program's result as the network of Net.lean over its own host stages.

  Boundary by boundary: region 0 leaves the first layer's table, the rectified two products of the neighbour sums of
  the node features and the node features themselves; stretch 1 sums that table's rows over the neighbours, region 1
  leaves the second layer's table, and so on; stretch 3 pools the third layer's table per graph and region 3 leaves
  the classifier's product. Each region's array is read by the block-cover lemma of KArrays.lean at the region's
  entry contents, which the stretch lemmas of KStretch.lean name.
-/
import proofs.«174008_j75505525064540_1_alg».proof.Proof.KRun
import proofs.«174008_j75505525064540_1_alg».proof.Proof.KStretch
import proofs.«174008_j75505525064540_1_alg».proof.Proof.KArrays
import proofs.«174008_j75505525064540_1_alg».proof.Proof.Net

set_option maxRecDepth 16384

noncomputable section

namespace Cert.KernelIdeal.Value

open Idealize.ShloMosaic Idealize.ShloMosaic.TcCoe Idealize.SL.Sem
open Cert.KernelIdeal Cert.KernelIdeal.Gen Cert.GraphNet

variable (m : (ℓ : Loc nD τ sig) → Buf (Elt Ideal) ℓ) (ρ : Dev nD → PrngReg) (c : Dev nD)

/-- The first layer's table, at region 0's exit. -/
theorem layer1_table : W2 m ρ c (Proc.devRef .tc main_v15)
    = rectified (Terms.neighbourSum32 (m ((c : Thread nD τ).loc main_arg0)) (m ((c : Thread nD τ).loc main_arg1))) (m ((c : Thread nD τ).loc main_arg0)) (m ((c : Thread nD τ).loc main_arg3)) (m ((c : Thread nD τ).loc main_arg4)) (Terms.biasRow16 (m ((c : Thread nD τ).loc main_arg5))) := by
  refine (W2_arr m ρ c 5).trans ((Arrays.layer1_array (V1 m ρ) c).trans ?_)
  show rectified (W1 m ρ c (Proc.devRef .tc main_v13)) (W1 m ρ c (Proc.devRef .tc main_arg0)) (W1 m ρ c (Proc.devRef .tc main_arg3))
    (W1 m ρ c (Proc.devRef .tc main_arg4)) (W1 m ρ c (Proc.devRef .tc main_v14)) = _
  rw [s0_v13, s0_arg0, s0_arg3, s0_arg4, s0_v14]

/-- The second layer's table, at region 1's exit, over the first layer's. -/
theorem layer2_table : W4 m ρ c (Proc.devRef .tc main_v27)
    = rectified (Terms.neighbourSum16 (W2 m ρ c (Proc.devRef .tc main_v15)) (m ((c : Thread nD τ).loc main_arg1))) (W2 m ρ c (Proc.devRef .tc main_v15))
        (m ((c : Thread nD τ).loc main_arg6)) (m ((c : Thread nD τ).loc main_arg7)) (Terms.biasRow16 (m ((c : Thread nD τ).loc main_arg8))) := by
  refine (W4_arr m ρ c 5).trans ((Arrays.layer2_array (V3 m ρ) c).trans ?_)
  show rectified (W3 m ρ c (Proc.devRef .tc main_v25)) (W3 m ρ c (Proc.devRef .tc main_v15)) (W3 m ρ c (Proc.devRef .tc main_arg6))
    (W3 m ρ c (Proc.devRef .tc main_arg7)) (W3 m ρ c (Proc.devRef .tc main_v26)) = _
  rw [s1_v25, s1_v15, s1_arg6, s1_arg7, s1_v26]

/-- The third layer's table, at region 2's exit, over the second layer's. -/
theorem layer3_table : W6 m ρ c (Proc.devRef .tc main_v39)
    = twoProducts (Terms.neighbourSum16 (W4 m ρ c (Proc.devRef .tc main_v27)) (m ((c : Thread nD τ).loc main_arg1))) (W4 m ρ c (Proc.devRef .tc main_v27))
        (m ((c : Thread nD τ).loc main_arg9)) (m ((c : Thread nD τ).loc main_arg10)) (Terms.biasRow16 (m ((c : Thread nD τ).loc main_arg11))) := by
  refine (W6_arr m ρ c 5).trans ((Arrays.layer3_array (V5 m ρ) c).trans ?_)
  show twoProducts (W5 m ρ c (Proc.devRef .tc main_v37)) (W5 m ρ c (Proc.devRef .tc main_v27)) (W5 m ρ c (Proc.devRef .tc main_arg9))
    (W5 m ρ c (Proc.devRef .tc main_arg10)) (W5 m ρ c (Proc.devRef .tc main_v38)) = _
  rw [s2_v37, s2_v27, s2_arg9, s2_arg10, s2_v38]

/-- The classifier's table, at region 3's exit, over the third layer's. -/
theorem classifier_table : W8 m ρ c (Proc.devRef .tc main_v44)
    = oneProduct (Terms.pooled (W6 m ρ c (Proc.devRef .tc main_v39)) (m ((c : Thread nD τ).loc main_arg2))) (m ((c : Thread nD τ).loc main_arg12)) (Terms.biasRow2 (m ((c : Thread nD τ).loc main_arg13))) := by
  refine (W8_arr m ρ c 3).trans ((Arrays.classifier_array (V7 m ρ) c).trans ?_)
  show oneProduct (W7 m ρ c (Proc.devRef .tc main_v42)) (W7 m ρ c (Proc.devRef .tc main_arg12)) (W7 m ρ c (Proc.devRef .tc main_v43)) = _
  rw [s3_v42, s3_arg12, s3_v43]

/-- The result array at the last boundary is the network of the launch contents of the arguments. -/
theorem result_eq : W8 m ρ c (Proc.devRef .tc main_v44)
    = net (Terms.neighbourSum32 (F := Ideal)) (Terms.neighbourSum16 (F := Ideal)) (Terms.pooled (F := Ideal))
        (Terms.biasRow16 (F := Ideal)) (Terms.biasRow2 (F := Ideal))
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [classifier_table, layer3_table, layer2_table, layer1_table]
  rfl

/-- The kernel program's run with the result named: the network of the launch contents of the arguments, which end
    unchanged. -/
theorem run : θ_run defs (onTc (τ := τ) (main (F := Ideal))) ⟨m, fun _ => 0, ρ⟩ (fun r => ∀ c : Dev nD,
      r.2.mem ((c.tc : Thread nD τ).loc main_v44)
        = net (Terms.neighbourSum32 (F := Ideal)) (Terms.neighbourSum16 (F := Ideal)) (Terms.pooled (F := Ideal))
            (Terms.biasRow16 (F := Ideal)) (Terms.biasRow2 (F := Ideal))
            (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_eq m ρ c), (h c).2⟩) (Gen.run_named m ρ)

end Cert.KernelIdeal.Value

end
-- ==== Proof.RTerms.lean ====
/-
  The reference program's stages, named.

  The reference sums each node's neighbours' feature rows (a gather of the source rows followed by a scatter-add onto
  the destination rows, both over the edge list; a negative source index is first raised by the number of nodes),
  applies a layer (two matrix products, a sum, the bias laid out as a row and repeated down the rows), rectifies, and
  repeats; after the third layer it sums the nodes' rows per graph and applies the classifier's product and bias.
-/
import proofs.«174008_j75505525064540_1_alg».proof.ReferenceIdeal
import proofs.«174008_j75505525064540_1_alg».proof.Proof.Gen.ReferenceIdeal

noncomputable section

namespace Cert.ReferenceIdeal.Terms

open Idealize.ShloMosaic Cert.ReferenceIdeal Cert.ReferenceIdeal.Gen

variable {F : FTy → Type} [FloatOps F]

/-- The edges' source node indices: row 0 of the edge list. -/
def sources (e : Vec F S2x3200000 .i32) : Vec F S3200000 .i32 :=
  shapeCast S3200000 (extractStridedSlice S1x3200000 ![0, 0] e slices_S2x3200000_S1x3200000_0_0) shapeCasts_S1x3200000_S3200000

/-- The edges' destination node indices: row 1 of the edge list. -/
def targets (e : Vec F S2x3200000 .i32) : Vec F S3200000 .i32 :=
  shapeCast S3200000 (extractStridedSlice S1x3200000 ![1, 0] e slices_S2x3200000_S1x3200000_1_0) shapeCasts_S1x3200000_S3200000

/-- A negative index counts from the end: it is raised by the number of nodes. -/
def wrapped (s : Vec F S3200000 .i32) : Vec F S3200000 .i32 :=
  select (cmpi .slt s (broadcastInDim S3200000 ![] bcast_S_S3200000 (constantI S_ 32 0#32)))
    (addi s (broadcastInDim S3200000 ![] bcast_S_S3200000 (constantI S_ 32 100000#32))) s

/-- Each node's summed neighbour rows, 32 features wide. -/
def neighbourSum32 (x : Vec F S100000x32 .f32) (e : Vec F S2x3200000 .i32) : Vec F S100000x32 .f32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 (targets e))
    (Host.gather gather_S100000x32_S3200000x1_S3200000x32_1_0_n_n_0_1_132 x
      (broadcastInDim S3200000x1 ![0] bcast_S3200000_S3200000x1_0 (wrapped (sources e))))

/-- Each node's summed neighbour rows, 16 features wide. -/
def neighbourSum16 (h : Vec F S100000x16 .f32) (e : Vec F S2x3200000 .i32) : Vec F S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 (targets e))
    (Host.gather gather_S100000x16_S3200000x1_S3200000x16_1_0_n_n_0_1_116 h
      (broadcastInDim S3200000x1 ![0] bcast_S3200000_S3200000x1_0 (wrapped (sources e))))

/-- The nodes' rows summed per graph. -/
def pooled (h : Vec F S100000x16 .f32) (g : Vec F S100000 .i32) : Vec F S512x16 .f32 :=
  Host.scatterAdd scatter_S512x16_S100000x1_S100000x16_1_0_0_1
    (broadcastInDim S512x16 ![] bcast_S_S512x16 (constant S_ .f32 0x00000000#32))
    (broadcastInDim S100000x1 ![0] bcast_S100000_S100000x1_0 g) h

/-- A bias vector of 16 entries laid out as a one-row table. -/
def biasRow16 (b : Vec F S16 .f32) : Vec F S1x16 .f32 := broadcastInDim S1x16 ![1] bcast_S16_S1x16_1 b

/-- A bias vector of 2 entries laid out as a one-row table. -/
def biasRow2 (b : Vec F S2 .f32) : Vec F S1x2 .f32 := broadcastInDim S1x2 ![1] bcast_S2_S1x2_1 b

/-- The first layer before the rectifier: a @ wa + x @ wx + the bias row repeated. -/
def layer32 (a x : Vec F S100000x32 .f32) (wa wx : Vec F S32x16 .f32) (b : Vec F S16 .f32) : Vec F S100000x16 .f32 :=
  addf (addf (Host.dotGeneral dot_S100000x32_S32x16_S100000x16_1_0_0_1_n_n none a wa)
      (Host.dotGeneral dot_S100000x32_S32x16_S100000x16_1_0_0_1_n_n none x wx))
    (broadcastInDim S100000x16 ![0, 1] bcast_S1x16_S100000x16_0_1 (biasRow16 b))

/-- A later layer before the rectifier. -/
def layer16 (a x : Vec F S100000x16 .f32) (wa wx : Vec F S16x16 .f32) (b : Vec F S16 .f32) : Vec F S100000x16 .f32 :=
  addf (addf (Host.dotGeneral dot_S100000x16_S16x16_S100000x16_1_0_0_1_n_n none a wa)
      (Host.dotGeneral dot_S100000x16_S16x16_S100000x16_1_0_0_1_n_n none x wx))
    (broadcastInDim S100000x16 ![0, 1] bcast_S1x16_S100000x16_0_1 (biasRow16 b))

/-- The rectifier as the reference writes it: v where v >= 0, slope * v elsewhere. -/
def rectify (v : Vec F S100000x16 .f32) : Vec F S100000x16 .f32 :=
  select (cmpf .oge v (broadcastInDim S100000x16 ![] bcast_S_S100000x16 (constant S_ .f32 0x00000000#32))) v
    (mulf (broadcastInDim S100000x16 ![] bcast_S_S100000x16 (id (constant S_ .f32 0x3C23D70A#32))) v)

/-- The classifier: p @ w + the bias row repeated. -/
def classify (p : Vec F S512x16 .f32) (w : Vec F S16x2 .f32) (b : Vec F S2 .f32) : Vec F S512x2 .f32 :=
  addf (Host.dotGeneral dot_S512x16_S16x2_S512x2_1_0_0_1_n_n none p w)
    (broadcastInDim S512x2 ![0, 1] bcast_S1x2_S512x2_0_1 (biasRow2 b))

/-- The reference's result from its fourteen arguments. -/
def out (x : Vec F S100000x32 .f32) (e : Vec F S2x3200000 .i32) (g : Vec F S100000 .i32)
    (wa1 wx1 : Vec F S32x16 .f32) (b1 : Vec F S16 .f32) (wa2 wx2 : Vec F S16x16 .f32) (b2 : Vec F S16 .f32)
    (wa3 wx3 : Vec F S16x16 .f32) (b3 : Vec F S16 .f32) (wc : Vec F S16x2 .f32) (bc : Vec F S2 .f32) : Vec F S512x2 .f32 :=
  classify (pooled (layer16 (neighbourSum16 (rectify (layer16 (neighbourSum16 (rectify (layer32 (neighbourSum32 x e) x wa1 wx1 b1)) e)
      (rectify (layer32 (neighbourSum32 x e) x wa1 wx1 b1)) wa2 wx2 b2)) e)
    (rectify (layer16 (neighbourSum16 (rectify (layer32 (neighbourSum32 x e) x wa1 wx1 b1)) e)
      (rectify (layer32 (neighbourSum32 x e) x wa1 wx1 b1)) wa2 wx2 b2)) wa3 wx3 b3) g) wc bc

end Cert.ReferenceIdeal.Terms

end
-- ==== Proof.ROps.lean ====
/- A table: the reference program's @main as the list of its 85 host operations in order, transcribed statement by statement
   from the printed program (the rectifier's two calls written out at their call sites over each call's buffer record), and per
   operation the lemma that it touches TensorCore buffers only. -/
import proofs.«174008_j75505525064540_1_alg».proof.ReferenceIdeal
import proofs.«174008_j75505525064540_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's operations in order. -/
abbrev ops : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_c (constantI S_ 32 0#32),
    StableHlo.unary main_c main_v4 (broadcastInDim S3200000 ![] bcast_S_S3200000 : (⟨S_, .i32⟩ : BufTy).Contents (Elt F) → (⟨S3200000, .i32⟩ : BufTy).Contents (Elt F)),
    StableHlo.binary main_v1 main_v4 main_v5 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v6 (broadcastInDim S3200000 ![] bcast_S_S3200000 : (⟨S_, .i32⟩ : BufTy).Contents (Elt F) → (⟨S3200000, .i32⟩ : BufTy).Contents (Elt F)),
    StableHlo.binary main_v1 main_v6 main_v7 (addi : (⟨S3200000, .i32⟩ : BufTy).Contents (Elt F) → (⟨S3200000, .i32⟩ : BufTy).Contents (Elt F) → (⟨S3200000, .i32⟩ : BufTy).Contents (Elt F)),
    StableHlo.ternary main_v5 main_v7 main_v1 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v8 main_v9 (broadcastInDim S3200000x1 ![0] bcast_S3200000_S3200000x1_0 : (⟨S3200000, .i32⟩ : BufTy).Contents (Elt F) → (⟨S3200000x1, .i32⟩ : BufTy).Contents (Elt F)),
    StableHlo.binary main_arg0 main_v9 main_v10 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst (constant S_ .f32 0x00000000#32),
    StableHlo.unary main_cst main_v11 (broadcastInDim S100000x32 ![] bcast_S_S100000x32 : (⟨S_, .f32⟩ : BufTy).Contents (Elt F) → (⟨S100000x32, .f32⟩ : BufTy).Contents (Elt F)),
    StableHlo.unary main_v3 main_v12 (broadcastInDim S3200000x1 ![0] bcast_S3200000_S3200000x1_0 : (⟨S3200000, .i32⟩ : BufTy).Contents (Elt F) → (⟨S3200000x1, .i32⟩ : BufTy).Contents (Elt F)),
    StableHlo.ternary main_v11 main_v12 main_v10 main_v13 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.binary main_v13 main_arg3 main_v14 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.binary main_arg0 main_arg4 main_v15 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.binary main_v14 main_v15 main_v16 (addf : (⟨S100000x16, .f32⟩ : BufTy).Contents (Elt F) → (⟨S100000x16, .f32⟩ : BufTy).Contents (Elt F) → (⟨S100000x16, .f32⟩ : BufTy).Contents (Elt F)),
    StableHlo.unary main_arg5 main_v17 (broadcastInDim S1x16 ![1] bcast_S16_S1x16_1 : (⟨S16, .f32⟩ : BufTy).Contents (Elt F) → (⟨S1x16, .f32⟩ : BufTy).Contents (Elt F)),
    StableHlo.unary main_v17 main_v18 (broadcastInDim S100000x16 ![0, 1] bcast_S1x16_S100000x16_0_1 : (⟨S1x16, .f32⟩ : BufTy).Contents (Elt F) → (⟨S100000x16, .f32⟩ : BufTy).Contents (Elt F)),
    StableHlo.binary main_v16 main_v18 main_v19 (addf : (⟨S100000x16, .f32⟩ : BufTy).Contents (Elt F) → (⟨S100000x16, .f32⟩ : BufTy).Contents (Elt F) → (⟨S100000x16, .f32⟩ : BufTy).Contents (Elt F)),
    StableHlo.nullary main_cst_1 (constant S_ .f32 0x3C23D70A#32),
    StableHlo.TRef.nullary main_call0.cst (constant S_ .f32 0x00000000#32),
    StableHlo.TRef.unary main_call0.cst main_call0.v0 (broadcastInDim S100000x16 ![] bcast_S_S100000x16),
    StableHlo.TRef.binary (.of main_v19) main_call0.v0 main_call0.v1 (cmpf .oge),
    StableHlo.TRef.unary (.of main_cst_1) main_call0.v2 id,
    StableHlo.TRef.unary main_call0.v2 main_call0.v3 (broadcastInDim S100000x16 ![] bcast_S_S100000x16),
    StableHlo.TRef.binary main_call0.v3 (.of main_v19) main_call0.v4 mulf,
    StableHlo.TRef.ternary main_call0.v1 (.of main_v19) main_call0.v4 main_call0.call0.v0 select,
    StableHlo.nullary main_c_2 (constantI S_ 32 0#32),
    StableHlo.unary main_c_2 main_v21 (broadcastInDim S3200000 ![] bcast_S_S3200000 : (⟨S_, .i32⟩ : BufTy).Contents (Elt F) → (⟨S3200000, .i32⟩ : BufTy).Contents (Elt F)),
    StableHlo.binary main_v1 main_v21 main_v22 (cmpi .slt : (⟨S3200000, .i32⟩ : BufTy).Contents (Elt F) → (⟨S3200000, .i32⟩ : BufTy).Contents (Elt F) → (⟨S3200000, .i1⟩ : BufTy).Contents (Elt F)),
    StableHlo.nullary main_c_3 (constantI S_ 32 100000#32),
    StableHlo.unary main_c_3 main_v23 (broadcastInDim S3200000 ![] bcast_S_S3200000 : (⟨S_, .i32⟩ : BufTy).Contents (Elt F) → (⟨S3200000, .i32⟩ : BufTy).Contents (Elt F)),
    StableHlo.binary main_v1 main_v23 main_v24 (addi : (⟨S3200000, .i32⟩ : BufTy).Contents (Elt F) → (⟨S3200000, .i32⟩ : BufTy).Contents (Elt F) → (⟨S3200000, .i32⟩ : BufTy).Contents (Elt F)),
    StableHlo.ternary main_v22 main_v24 main_v1 main_v25 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v25 main_v26 (broadcastInDim S3200000x1 ![0] bcast_S3200000_S3200000x1_0 : (⟨S3200000, .i32⟩ : BufTy).Contents (Elt F) → (⟨S3200000x1, .i32⟩ : BufTy).Contents (Elt F)),
    StableHlo.binary main_v20 main_v26 main_v27 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.nullary main_cst_4 (constant S_ .f32 0x00000000#32),
    StableHlo.unary main_cst_4 main_v28 (broadcastInDim S100000x16 ![] bcast_S_S100000x16 : (⟨S_, .f32⟩ : BufTy).Contents (Elt F) → (⟨S100000x16, .f32⟩ : BufTy).Contents (Elt F)),
    StableHlo.unary main_v3 main_v29 (broadcastInDim S3200000x1 ![0] bcast_S3200000_S3200000x1_0 : (⟨S3200000, .i32⟩ : BufTy).Contents (Elt F) → (⟨S3200000x1, .i32⟩ : BufTy).Contents (Elt F)),
    StableHlo.ternary main_v28 main_v29 main_v27 main_v30 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.binary main_v30 main_arg6 main_v31 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.binary main_v20 main_arg7 main_v32 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.binary main_v31 main_v32 main_v33 (addf : (⟨S100000x16, .f32⟩ : BufTy).Contents (Elt F) → (⟨S100000x16, .f32⟩ : BufTy).Contents (Elt F) → (⟨S100000x16, .f32⟩ : BufTy).Contents (Elt F)),
    StableHlo.unary main_arg8 main_v34 (broadcastInDim S1x16 ![1] bcast_S16_S1x16_1 : (⟨S16, .f32⟩ : BufTy).Contents (Elt F) → (⟨S1x16, .f32⟩ : BufTy).Contents (Elt F)),
    StableHlo.unary main_v34 main_v35 (broadcastInDim S100000x16 ![0, 1] bcast_S1x16_S100000x16_0_1 : (⟨S1x16, .f32⟩ : BufTy).Contents (Elt F) → (⟨S100000x16, .f32⟩ : BufTy).Contents (Elt F)),
    StableHlo.binary main_v33 main_v35 main_v36 (addf : (⟨S100000x16, .f32⟩ : BufTy).Contents (Elt F) → (⟨S100000x16, .f32⟩ : BufTy).Contents (Elt F) → (⟨S100000x16, .f32⟩ : BufTy).Contents (Elt F)),
    StableHlo.nullary main_cst_5 (constant S_ .f32 0x3C23D70A#32),
    StableHlo.TRef.nullary main_call1.cst (constant S_ .f32 0x00000000#32),
    StableHlo.TRef.unary main_call1.cst main_call1.v0 (broadcastInDim S100000x16 ![] bcast_S_S100000x16),
    StableHlo.TRef.binary (.of main_v36) main_call1.v0 main_call1.v1 (cmpf .oge),
    StableHlo.TRef.unary (.of main_cst_5) main_call1.v2 id,
    StableHlo.TRef.unary main_call1.v2 main_call1.v3 (broadcastInDim S100000x16 ![] bcast_S_S100000x16),
    StableHlo.TRef.binary main_call1.v3 (.of main_v36) main_call1.v4 mulf,
    StableHlo.TRef.ternary main_call1.v1 (.of main_v36) main_call1.v4 main_call1.call0.v0 select,
    StableHlo.nullary main_c_6 (constantI S_ 32 0#32),
    StableHlo.unary main_c_6 main_v38 (broadcastInDim S3200000 ![] bcast_S_S3200000 : (⟨S_, .i32⟩ : BufTy).Contents (Elt F) → (⟨S3200000, .i32⟩ : BufTy).Contents (Elt F)),
    StableHlo.binary main_v1 main_v38 main_v39 (cmpi .slt : (⟨S3200000, .i32⟩ : BufTy).Contents (Elt F) → (⟨S3200000, .i32⟩ : BufTy).Contents (Elt F) → (⟨S3200000, .i1⟩ : BufTy).Contents (Elt F)),
    StableHlo.nullary main_c_7 (constantI S_ 32 100000#32),
    StableHlo.unary main_c_7 main_v40 (broadcastInDim S3200000 ![] bcast_S_S3200000 : (⟨S_, .i32⟩ : BufTy).Contents (Elt F) → (⟨S3200000, .i32⟩ : BufTy).Contents (Elt F)),
    StableHlo.binary main_v1 main_v40 main_v41 (addi : (⟨S3200000, .i32⟩ : BufTy).Contents (Elt F) → (⟨S3200000, .i32⟩ : BufTy).Contents (Elt F) → (⟨S3200000, .i32⟩ : BufTy).Contents (Elt F)),
    StableHlo.ternary main_v39 main_v41 main_v1 main_v42 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v42 main_v43 (broadcastInDim S3200000x1 ![0] bcast_S3200000_S3200000x1_0 : (⟨S3200000, .i32⟩ : BufTy).Contents (Elt F) → (⟨S3200000x1, .i32⟩ : BufTy).Contents (Elt F)),
    StableHlo.binary main_v37 main_v43 main_v44 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.nullary main_cst_8 (constant S_ .f32 0x00000000#32),
    StableHlo.unary main_cst_8 main_v45 (broadcastInDim S100000x16 ![] bcast_S_S100000x16 : (⟨S_, .f32⟩ : BufTy).Contents (Elt F) → (⟨S100000x16, .f32⟩ : BufTy).Contents (Elt F)),
    StableHlo.unary main_v3 main_v46 (broadcastInDim S3200000x1 ![0] bcast_S3200000_S3200000x1_0 : (⟨S3200000, .i32⟩ : BufTy).Contents (Elt F) → (⟨S3200000x1, .i32⟩ : BufTy).Contents (Elt F)),
    StableHlo.ternary main_v45 main_v46 main_v44 main_v47 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.binary main_v47 main_arg9 main_v48 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.binary main_v37 main_arg10 main_v49 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.binary main_v48 main_v49 main_v50 (addf : (⟨S100000x16, .f32⟩ : BufTy).Contents (Elt F) → (⟨S100000x16, .f32⟩ : BufTy).Contents (Elt F) → (⟨S100000x16, .f32⟩ : BufTy).Contents (Elt F)),
    StableHlo.unary main_arg11 main_v51 (broadcastInDim S1x16 ![1] bcast_S16_S1x16_1 : (⟨S16, .f32⟩ : BufTy).Contents (Elt F) → (⟨S1x16, .f32⟩ : BufTy).Contents (Elt F)),
    StableHlo.unary main_v51 main_v52 (broadcastInDim S100000x16 ![0, 1] bcast_S1x16_S100000x16_0_1 : (⟨S1x16, .f32⟩ : BufTy).Contents (Elt F) → (⟨S100000x16, .f32⟩ : BufTy).Contents (Elt F)),
    StableHlo.binary main_v50 main_v52 main_v53 (addf : (⟨S100000x16, .f32⟩ : BufTy).Contents (Elt F) → (⟨S100000x16, .f32⟩ : BufTy).Contents (Elt F) → (⟨S100000x16, .f32⟩ : BufTy).Contents (Elt F)),
    StableHlo.nullary main_cst_9 (constant S_ .f32 0x00000000#32),
    StableHlo.unary main_cst_9 main_v54 (broadcastInDim S512x16 ![] bcast_S_S512x16 : (⟨S_, .f32⟩ : BufTy).Contents (Elt F) → (⟨S512x16, .f32⟩ : BufTy).Contents (Elt F)),
    StableHlo.unary main_arg2 main_v55 (broadcastInDim S100000x1 ![0] bcast_S100000_S100000x1_0 : (⟨S100000, .i32⟩ : BufTy).Contents (Elt F) → (⟨S100000x1, .i32⟩ : BufTy).Contents (Elt F)),
    StableHlo.ternary main_v54 main_v55 main_v53 main_v56 ((fun x i u => Host.scatterAdd scatter_S512x16_S100000x1_S100000x16_1_0_0_1 x i u) : (⟨S512x16, .f32⟩ : BufTy).Contents (Elt F) → (⟨S100000x1, .i32⟩ : BufTy).Contents (Elt F) → (⟨S100000x16, .f32⟩ : BufTy).Contents (Elt F) → (⟨S512x16, .f32⟩ : BufTy).Contents (Elt F)),
    StableHlo.binary main_v56 main_arg12 main_v57 ((fun l r => Host.dotGeneral dot_S512x16_S16x2_S512x2_1_0_0_1_n_n none l r) : (⟨S512x16, .f32⟩ : BufTy).Contents (Elt F) → (⟨S16x2, .f32⟩ : BufTy).Contents (Elt F) → (⟨S512x2, .f32⟩ : BufTy).Contents (Elt F)),
    StableHlo.unary main_arg13 main_v58 (broadcastInDim S1x2 ![1] bcast_S2_S1x2_1 : (⟨S2, .f32⟩ : BufTy).Contents (Elt F) → (⟨S1x2, .f32⟩ : BufTy).Contents (Elt F)),
    StableHlo.unary main_v58 main_v59 (broadcastInDim S512x2 ![0, 1] bcast_S1x2_S512x2_0_1 : (⟨S1x2, .f32⟩ : BufTy).Contents (Elt F) → (⟨S512x2, .f32⟩ : BufTy).Contents (Elt F)),
    StableHlo.binary main_v57 main_v59 main_v60 (addf : (⟨S512x2, .f32⟩ : BufTy).Contents (Elt F) → (⟨S512x2, .f32⟩ : BufTy).Contents (Elt F) → (⟨S512x2, .f32⟩ : BufTy).Contents (Elt F)) ]

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩

end Cert.ReferenceIdeal.Run

end
-- ==== Proof.RRun.lean ====
/-
  The reference program's run, read back: its @main is the straight line of 85 host operations listed in ROps.lean (the
  two calls of the rectifier opened at their call sites, seven operations each), so every execution ends with each buffer at the
  operations' fold over the launch memory; the result buffer's fold is the composed term `Terms.out` of the fourteen
  arguments, and no operation writes an argument.
-/
import proofs.«174008_j75505525064540_1_alg».proof.Proof.RTerms
import proofs.«174008_j75505525064540_1_alg».proof.Proof.ROps
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
set_option maxHeartbeats 4000000 in
/-- @main is that straight line: its two windows and the rectifier's body unfolded at both calls, sequencing
    reassociated, both sides are the same chain of 85 steps. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every execution ends with every buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.scatterAdd in
set_option maxRecDepth 8192 in
set_option maxHeartbeats 4000000 in
/-- The fold at the result buffer is the composed term of the arguments: each operation's result read at the buffer it
    writes is its function of its operands' contents, and at any other buffer what was there; followed back from the
    result buffer this is the stages of `Terms.out` nested in the program's order, the typed references' transports
    the identity at these literal buffers. The gather and the scatter-add stay folded: the equation never looks inside them. -/
theorem out_eq (V : Valuation τ sig (Elt F)) :
    after ops V (main_v60 : DevRef τ sig)
      = Terms.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) := by
  after_results_simp
  rfl

set_option maxRecDepth 8192 in
set_option maxHeartbeats 4000000 in
/-- No operation writes an argument: each of the 85 results is another buffer. -/
theorem arg_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig)
    ∧ after ops V (main_arg12 : DevRef τ sig) = V (main_arg12 : DevRef τ sig)
    ∧ after ops V (main_arg13 : DevRef τ sig) = V (main_arg13 : DevRef τ sig) := by
  refine ⟨?_, ?_, ?_, ?_, ?_, ?_, ?_, ?_, ?_, ?_, ?_, ?_, ?_, ?_⟩ <;> after_results_simp

/-- The run with the result named: the composed term of the launch contents of the arguments, which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
        = Terms.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    have ha := arg_eq (F := F) (launchContents m c)
    ⟨(h c main_v60).trans (out_eq (launchContents m c)),
      (h c main_arg0).trans ha.1,
      (h c main_arg1).trans ha.2.1,
      (h c main_arg2).trans ha.2.2.1,
      (h c main_arg3).trans ha.2.2.2.1,
      (h c main_arg4).trans ha.2.2.2.2.1,
      (h c main_arg5).trans ha.2.2.2.2.2.1,
      (h c main_arg6).trans ha.2.2.2.2.2.2.1,
      (h c main_arg7).trans ha.2.2.2.2.2.2.2.1,
      (h c main_arg8).trans ha.2.2.2.2.2.2.2.2.1,
      (h c main_arg9).trans ha.2.2.2.2.2.2.2.2.2.1,
      (h c main_arg10).trans ha.2.2.2.2.2.2.2.2.2.2.1,
      (h c main_arg11).trans ha.2.2.2.2.2.2.2.2.2.2.2.1,
      (h c main_arg12).trans ha.2.2.2.2.2.2.2.2.2.2.2.2.1,
      (h c main_arg13).trans ha.2.2.2.2.2.2.2.2.2.2.2.2.2⟩)
    (run_main m ρ)

end Cert.ReferenceIdeal.Run

end
-- ==== Proof.RLayers.lean ====
/-
  The reference's layers, read entry by entry on the extended reals, are the layers of Spec.lean, and its result is
  the network of Net.lean over its own host stages.

  A host product of an n x k table with a k x c table is the sum over q of l (p, q) * r (q, j) at entry (p, j); the
  bias row repeated down the rows contributes its entry (0, j); the rectifier "v if v >= 0 else slope * v" is the leaky
  rectifier at every extended real.
-/
import proofs.«174008_j75505525064540_1_alg».proof.Proof.RTerms
import proofs.«174008_j75505525064540_1_alg».proof.Proof.Net
import proofs.«174008_j75505525064540_1_alg».proof.Proof.LibPlainDot
import Idealize.ShloMosaic.Lib.Pipeline.Value
import Idealize.ShloMosaic.Lib.ValueLayout

noncomputable section

namespace Cert.ReferenceIdeal.Layers

open Idealize.ShloMosaic Idealize.ShloMosaic.ValueIdx Cert.ReferenceIdeal Cert.ReferenceIdeal.Gen Cert.ReferenceIdeal.Terms Cert.GraphNet

/-- A one-row table repeated down the rows holds, at entry (p, q), the row's entry (0, q). -/
theorem rowRepeated_apply {α : Type} {n c : Nat}
    (h : (⟨2, ![1, c]⟩ : Shape).BroadcastsInDim ⟨2, ![n, c]⟩ (![0, 1] : Fin 2 → Fin 2))
    (row : (⟨2, ![1, c]⟩ : Shape).Idx → α) (p : Fin n) (q : Fin c) :
    broadcastInDim ⟨2, ![n, c]⟩ ![0, 1] h row (ix2 p q) = row (ix2 (0 : Fin 1) q) := by
  refine broadcastInDim_apply ![0, 1] h row (ix2 p q) (ix2 (0 : Fin 1) q) ?_
  intro a
  match a with
  | ⟨0, _⟩ =>
    exact (if_pos rfl).symm
  | ⟨1, _⟩ =>
    show q.val = if c = 1 then 0 else q.val
    by_cases hc : c = 1
    · rw [if_pos hc]
      have := q.isLt
      omega
    · rw [if_neg hc]

/-- A scalar repeated over a table holds the scalar at every entry. -/
theorem scalarRepeated_apply {α : Type} {s : Shape} (h : (⟨0, ![]⟩ : Shape).BroadcastsInDim s (![] : Fin 0 → Fin s.rank))
    (x : (⟨0, ![]⟩ : Shape).Idx → α) (i : s.Idx) (k : (⟨0, ![]⟩ : Shape).Idx) :
    broadcastInDim s ![] h x i = x k :=
  broadcastInDim_apply ![] h x i k (fun a => a.elim0)

/-- The rectifier as the reference writes it is the leaky rectifier at every entry. -/
theorem rectify_apply (v : Vec Ideal S100000x16 .f32) (i : S100000x16.Idx) :
    rectify (F := Ideal) v i = leaky (v i) := by
  unfold rectify
  show Scalar.select (FloatOps.cmpf (F := Ideal) .oge (v i) (broadcastInDim S100000x16 ![] bcast_S_S100000x16 (constant S_ .f32 0x00000000#32) i)) (v i)
      (FloatOps.mulf (F := Ideal) (broadcastInDim S100000x16 ![] bcast_S_S100000x16 (id (constant S_ .f32 0x3C23D70A#32)) i) (v i)) = leaky (v i)
  rw [scalarRepeated_apply _ _ i (fun a => a.elim0), scalarRepeated_apply _ _ i (fun a => a.elim0)]
  show Scalar.select (Ideal.cmp .oge (v i) (Ideal.ofBits .f32 0x00000000#32)) (v i) (slope * v i) = leaky (v i)
  rw [Ideal.ofBits_zero_f32]
  exact leaky_of_ge (v i)

/-- The first layer before the rectifier, entry by entry. -/
theorem layer32_eq (a x : Vec Ideal S100000x32 .f32) (wa wx : Vec Ideal S32x16 .f32) (b : Vec Ideal S16 .f32) :
    layer32 (F := Ideal) a x wa wx b = twoProducts a x wa wx (biasRow16 b) := by
  funext j
  obtain ⟨p, q, rfl⟩ : ∃ (p : Fin 100000) (q : Fin 16), j = ix2 p q := ⟨j 0, j 1, eq_ix2 j⟩
  rw [twoProducts_ix2]
  unfold layer32
  show (Host.dotGeneral (F := Ideal) dot_S100000x32_S32x16_S100000x16_1_0_0_1_n_n none a wa (ix2 p q)
      + Host.dotGeneral (F := Ideal) dot_S100000x32_S32x16_S100000x16_1_0_0_1_n_n none x wx (ix2 p q))
      + broadcastInDim S100000x16 ![0, 1] bcast_S1x16_S100000x16_0_1 (biasRow16 b) (ix2 p q) = _
  rw [rowRepeated_apply]
  refine congrArg₂ (· + ·) (congrArg₂ (· + ·) ?_ ?_) rfl
  · exact Cert.LibPlainDot.dotGeneral_apply _ rfl rfl rfl rfl rfl rfl none _ a wa p q
  · exact Cert.LibPlainDot.dotGeneral_apply _ rfl rfl rfl rfl rfl rfl none _ x wx p q

/-- The first layer, rectified. -/
theorem rectify_layer32 (a x : Vec Ideal S100000x32 .f32) (wa wx : Vec Ideal S32x16 .f32) (b : Vec Ideal S16 .f32) :
    rectify (F := Ideal) (layer32 a x wa wx b) = rectified a x wa wx (biasRow16 b) := by
  funext j
  rw [rectify_apply, layer32_eq]
  rfl

/-- A later layer, not rectified. -/
theorem layer16_eq (a x : Vec Ideal S100000x16 .f32) (wa wx : Vec Ideal S16x16 .f32) (b : Vec Ideal S16 .f32) :
    layer16 (F := Ideal) a x wa wx b = twoProducts a x wa wx (biasRow16 b) := by
  funext j
  obtain ⟨p, q, rfl⟩ : ∃ (p : Fin 100000) (q : Fin 16), j = ix2 p q := ⟨j 0, j 1, eq_ix2 j⟩
  rw [twoProducts_ix2]
  unfold layer16
  show (Host.dotGeneral (F := Ideal) dot_S100000x16_S16x16_S100000x16_1_0_0_1_n_n none a wa (ix2 p q)
      + Host.dotGeneral (F := Ideal) dot_S100000x16_S16x16_S100000x16_1_0_0_1_n_n none x wx (ix2 p q))
      + broadcastInDim S100000x16 ![0, 1] bcast_S1x16_S100000x16_0_1 (biasRow16 b) (ix2 p q) = _
  rw [rowRepeated_apply]
  refine congrArg₂ (· + ·) (congrArg₂ (· + ·) ?_ ?_) rfl
  · exact Cert.LibPlainDot.dotGeneral_apply _ rfl rfl rfl rfl rfl rfl none _ a wa p q
  · exact Cert.LibPlainDot.dotGeneral_apply _ rfl rfl rfl rfl rfl rfl none _ x wx p q

/-- A later layer, rectified. -/
theorem rectify_layer16 (a x : Vec Ideal S100000x16 .f32) (wa wx : Vec Ideal S16x16 .f32) (b : Vec Ideal S16 .f32) :
    rectify (F := Ideal) (layer16 a x wa wx b) = rectified a x wa wx (biasRow16 b) := by
  funext j
  rw [rectify_apply, layer16_eq]
  rfl

/-- The classifier. -/
theorem classify_eq (p : Vec Ideal S512x16 .f32) (w : Vec Ideal S16x2 .f32) (b : Vec Ideal S2 .f32) :
    classify (F := Ideal) p w b = oneProduct p w (biasRow2 b) := by
  funext j
  obtain ⟨r, q, rfl⟩ : ∃ (r : Fin 512) (q : Fin 2), j = ix2 r q := ⟨j 0, j 1, eq_ix2 j⟩
  rw [oneProduct_ix2]
  unfold classify
  show Host.dotGeneral (F := Ideal) dot_S512x16_S16x2_S512x2_1_0_0_1_n_n none p w (ix2 r q)
      + broadcastInDim S512x2 ![0, 1] bcast_S1x2_S512x2_0_1 (biasRow2 b) (ix2 r q) = _
  rw [rowRepeated_apply]
  refine congrArg₂ (· + ·) ?_ rfl
  exact Cert.LibPlainDot.dotGeneral_apply _ rfl rfl rfl rfl rfl rfl none _ p w r q

/-- The reference's result is the network over the reference's host stages. -/
theorem out_eq_net (x : Vec Ideal S100000x32 .f32) (e : Vec Ideal S2x3200000 .i32) (g : Vec Ideal S100000 .i32)
    (wa1 wx1 : Vec Ideal S32x16 .f32) (b1 : Vec Ideal S16 .f32) (wa2 wx2 : Vec Ideal S16x16 .f32) (b2 : Vec Ideal S16 .f32)
    (wa3 wx3 : Vec Ideal S16x16 .f32) (b3 : Vec Ideal S16 .f32) (wc : Vec Ideal S16x2 .f32) (bc : Vec Ideal S2 .f32) :
    out (F := Ideal) x e g wa1 wx1 b1 wa2 wx2 b2 wa3 wx3 b3 wc bc
      = net (neighbourSum32 (F := Ideal)) (neighbourSum16 (F := Ideal)) (pooled (F := Ideal)) (biasRow16 (F := Ideal)) (biasRow2 (F := Ideal))
          x e g wa1 wx1 b1 wa2 wx2 b2 wa3 wx3 b3 wc bc := by
  unfold out net
  rw [rectify_layer32, rectify_layer16, layer16_eq, classify_eq]

end Cert.ReferenceIdeal.Layers

end
-- ==== Proof.LibReshapeAsBroadcast.lean ====
/-
  A vector laid out as a one-row table, or as a one-column table, by a reshape is the same table as the one a broadcast
  along the other axis makes: both hold x k at (0, k), respectively at (k, 0).

  Both sides are read index by index. A reshape keeps the row-major position: entry (0, k) of a table of one row of
  length n sits at position 0 * n + k = k, and entry (k, 0) of a table of n rows of length one at position k * 1 + 0 = k,
  so either reads entry k of the vector. A broadcast along axis b reads the vector at the b-th coordinate of the index
  (at 0 if the vector has a single entry, which is then that same coordinate): k again.
-/
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

/-- [n] to [1, n]. -/
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  -- the only row is row 0; the column is below n
  have hj0 : (j 0).val = 0 := by
    have h0 : (j 0).val < 1 := (j 0).isLt
    omega
  have hj1 : (j 1).val < n := (j 1).isLt
  -- the entry of the vector both sides read
  let k : (⟨1, ![n]⟩ : Shape).Idx := fun a => ⟨(j 1).val, by
    have ha : a = 0 := Subsingleton.elim _ _
    subst ha
    exact hj1⟩
  have hL : shapeCast ⟨2, ![1, n]⟩ x h j = x k := by
    refine shapeCast_apply x h j k ?_
    rw [Shape.rowMajor_val_one, Shape.rowMajor_val_two]
    show (j 1).val = (j 0).val * n + (j 1).val
    rw [hj0]
    omega
  have hR : broadcastInDim ⟨2, ![1, n]⟩ ![1] hb x j = x k := by
    refine broadcastInDim_apply ![1] hb x j k ?_
    intro a
    have ha : a = 0 := Subsingleton.elim _ _
    subst ha
    show (j 1).val = if n = 1 then 0 else (j 1).val
    by_cases hn : n = 1
    · rw [if_pos hn]; omega
    · rw [if_neg hn]
  rw [hL, hR]

/-- [n] to [n, 1]. -/
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  -- the only column is column 0; the row is below n
  have hj1 : (j 1).val = 0 := by
    have h1 : (j 1).val < 1 := (j 1).isLt
    omega
  have hj0 : (j 0).val < n := (j 0).isLt
  let k : (⟨1, ![n]⟩ : Shape).Idx := fun a => ⟨(j 0).val, by
    have ha : a = 0 := Subsingleton.elim _ _
    subst ha
    exact hj0⟩
  have hL : shapeCast ⟨2, ![n, 1]⟩ x h j = x k := by
    refine shapeCast_apply x h j k ?_
    rw [Shape.rowMajor_val_one, Shape.rowMajor_val_two]
    show (j 0).val = (j 0).val * 1 + (j 1).val
    rw [hj1]
    omega
  have hR : broadcastInDim ⟨2, ![n, 1]⟩ ![0] hb x j = x k := by
    refine broadcastInDim_apply ![0] hb x j k ?_
    intro a
    have ha : a = 0 := Subsingleton.elim _ _
    subst ha
    show (j 0).val = if n = 1 then 0 else (j 0).val
    by_cases hn : n = 1
    · rw [if_pos hn]; omega
    · rw [if_neg hn]
  rw [hL, hR]

end Idealize.ShloMosaic.ReshapeAsBroadcast

end
-- ==== Proof.Bridge.lean ====
/-
  The two programs' host stages are the same functions.

  The kernel's program and the reference sum neighbours and pool by the same host operations over the same dimension
  records (the records of the two printed programs have equal fields), so the named stages agree as functions. The
  bias row differs in spelling only: the kernel's program reshapes the bias vector to a one-row table, the reference
  broadcasts it along the column axis, and both tables hold b k at (0, k).
-/
import proofs.«174008_j75505525064540_1_alg».proof.Proof.KTerms
import proofs.«174008_j75505525064540_1_alg».proof.Proof.RTerms
import proofs.«174008_j75505525064540_1_alg».proof.Proof.Net
import proofs.«174008_j75505525064540_1_alg».proof.Proof.LibReshapeAsBroadcast

noncomputable section

namespace Cert.Bridge

open Idealize.ShloMosaic Cert.GraphNet

theorem sum32_eq : (Cert.KernelIdeal.Terms.neighbourSum32 (F := Ideal)) = Cert.ReferenceIdeal.Terms.neighbourSum32 (F := Ideal) := by
  funext x e
  rfl

theorem sum16_eq : (Cert.KernelIdeal.Terms.neighbourSum16 (F := Ideal)) = Cert.ReferenceIdeal.Terms.neighbourSum16 (F := Ideal) := by
  funext h e
  rfl

theorem pooled_eq : (Cert.KernelIdeal.Terms.pooled (F := Ideal)) = Cert.ReferenceIdeal.Terms.pooled (F := Ideal) := by
  funext h g
  rfl

theorem row16_eq : (Cert.KernelIdeal.Terms.biasRow16 (F := Ideal)) = Cert.ReferenceIdeal.Terms.biasRow16 (F := Ideal) := by
  funext b
  exact ReshapeAsBroadcast.shapeCast_row 16 b _ _

theorem row2_eq : (Cert.KernelIdeal.Terms.biasRow2 (F := Ideal)) = Cert.ReferenceIdeal.Terms.biasRow2 (F := Ideal) := by
  funext b
  exact ReshapeAsBroadcast.shapeCast_row 2 b _ _

/-- The network over the kernel program's host stages is the network over the reference's. -/
theorem net_eq :
    net (Cert.KernelIdeal.Terms.neighbourSum32 (F := Ideal)) (Cert.KernelIdeal.Terms.neighbourSum16 (F := Ideal))
        (Cert.KernelIdeal.Terms.pooled (F := Ideal)) (Cert.KernelIdeal.Terms.biasRow16 (F := Ideal)) (Cert.KernelIdeal.Terms.biasRow2 (F := Ideal))
      = net (Cert.ReferenceIdeal.Terms.neighbourSum32 (F := Ideal)) (Cert.ReferenceIdeal.Terms.neighbourSum16 (F := Ideal))
        (Cert.ReferenceIdeal.Terms.pooled (F := Ideal)) (Cert.ReferenceIdeal.Terms.biasRow16 (F := Ideal)) (Cert.ReferenceIdeal.Terms.biasRow2 (F := Ideal)) := by
  rw [sum32_eq, sum16_eq, pooled_eq, row16_eq, row2_eq]

end Cert.Bridge

end
-- ==== Proof.lean ====
/-
  A three-layer graph convolution network with a per-graph sum and a linear classifier: the kernel program against the
  reference, as functions of the extended reals.

  Both programs sum each node's neighbours' feature rows over the edge list by the same host operations. The kernel
  program then computes every layer in a kernel region that walks the nodes in blocks of 5000 rows: two matrix products
  into zero accumulators (operands rounded to bfloat16, the identity on the extended reals), their sum, the bias row,
  and in the first two layers the leaky rectifier written "v if v > 0 else slope * v". The reference computes the same
  layer by two host products over the whole table and writes the rectifier "v if v >= 0 else slope * v". Entry by
  entry both are sum_q a (p, q) * wa (q, j) + sum_q x (p, q) * wx (q, j) + b j, rectified by the same function (the two
  spellings differ only at 0, where slope * 0 = 0). A row of a layer's output depends on the same row of its inputs
  only, so the blocks a region writes are the restrictions of the whole-table function and they cover the table. After
  the third layer both programs sum the rows per graph by the same host scatter-add, and the classifier is one product
  and a bias row on both sides. No law needing finiteness is used: the two sides are the same sums in the same order.

  The three frames: the two kernel programs' by the generated frame certificates, the reference's by its run read
  back. The idealization rewrote nothing, so there is nothing to preserve beyond the text itself.
-/
import proofs.«174008_j75505525064540_1_alg».proof.Defs
import proofs.«174008_j75505525064540_1_alg».proof.Proof.Gen.Kernel
import proofs.«174008_j75505525064540_1_alg».proof.Proof.Gen.Kernel.Frame
import proofs.«174008_j75505525064540_1_alg».proof.Proof.Gen.KernelIdeal
import proofs.«174008_j75505525064540_1_alg».proof.Proof.Gen.KernelIdeal.Frame
import proofs.«174008_j75505525064540_1_alg».proof.Proof.Gen.ReferenceIdeal
import proofs.«174008_j75505525064540_1_alg».proof.Proof.Gen.Pre_finite_inputs
import proofs.«174008_j75505525064540_1_alg».proof.Proof.KValue
import proofs.«174008_j75505525064540_1_alg».proof.Proof.RRun
import proofs.«174008_j75505525064540_1_alg».proof.Proof.RLayers
import proofs.«174008_j75505525064540_1_alg».proof.Proof.Bridge

noncomputable section

namespace Cert.Proof

open Idealize.ShloMosaic Idealize.SL.Sem Cert.GraphNet

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run read back, the result dropped. -/
theorem frame_referenceIdeal : Cert.frame_ReferenceIdeal := fun m ρ _ =>
  (θ_run Cert.ReferenceIdeal.defs _ _).mono (fun _ h c => (h c).2) (Cert.ReferenceIdeal.Run.run (F := Ideal) m ρ)

/-- Both programs end at the network of Net.lean of their arguments: the kernel program over its own host stages, the
    reference over its own, and the stages are the same functions. -/
theorem algebraic : Cert.algebraic_KernelIdeal_ReferenceIdeal := by
  intro m ρ m' ρ' _ hagree
  refine ⟨fun c => net (Cert.KernelIdeal.Terms.neighbourSum32 (F := Ideal)) (Cert.KernelIdeal.Terms.neighbourSum16 (F := Ideal))
      (Cert.KernelIdeal.Terms.pooled (F := Ideal)) (Cert.KernelIdeal.Terms.biasRow16 (F := Ideal)) (Cert.KernelIdeal.Terms.biasRow2 (F := Ideal))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)),
    Cert.KernelIdeal.Value.run m ρ, ?_⟩
  refine (θ_run Cert.ReferenceIdeal.defs _ _).mono (fun _ h c => ⟨(h c).1.trans ?_, (h c).2⟩)
    (Cert.ReferenceIdeal.Run.run (F := Ideal) m' ρ')
  obtain ⟨e0, e1, e2, e3, e4, e5, e6, e7, e8, e9, e10, e11, e12, e13⟩ := hagree c
  rw [Cert.ReferenceIdeal.Layers.out_eq_net, ← Cert.Bridge.net_eq, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
